-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S1 : Shape := ⟨1, ![1]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1 : S_.BroadcastsInDim S1 (![] : Fin 0 → Fin S1.rank)
  reducesTo_S1_S_d0 : S1.ReducesTo [0] S_
  reducesTo_S8192x512_S8192_d1 : S8192x512.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v15 : FVec F S8192 .f32) (main_cst_5 : FVec F S_ .f32) : IVec S_ 1 :=
  let main_v16 : FVec F S8192 .f32 := broadcastInDim S8192 ![] bcast_S_S8192 main_cst_5
  let main_v17 : IVec S8192 1 := cmpf .ogt main_v15 main_v16
  let main_c_6 : IVec S_ 1 := constantI S_ 1 1#1
  let main_v18 : IVec S_ 1 := (fun x v => Host.reduce IntOp.andi x v reducesTo_S8192_S_d0 h_S_) main_v17 main_c_6
  let main_v19 : IVec S_ 1 := andi main_v13 main_v18
  main_v19

def fn {F : FTy → Type} [FloatOps F] (main_arg0 : FVec F S8192x512 .f32) (main_arg1 : FVec F S8192x8192 .f32) (main_arg2 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S8192x512 .f32 := mulf main_arg0 main_arg0
  let main_cst_4 : FVec F S_ .f32 := constant S_ .f32 0x00000000#32
  let main_v15 : FVec F S8192 .f32 := (fun x v => Host.reduceAdd x v reducesTo_S8192x512_S8192_d1 h_S_) main_v14 main_cst_4
  let main_cst_5 : FVec F S_ .f32 := constant S_ .f32 0x00000000#32
  fn_part1 (F := F) main_v13 main_v15 main_cst_5
-- ==== Kernel.lean ====
abbrev S8192x512 : Shape := ⟨2, ![8192, 512]⟩
abbrev S8192x8192 : Shape := ⟨2, ![8192, 8192]⟩
abbrev S1 : Shape := ⟨1, ![1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x1x128 : Shape := ⟨3, ![64, 1, 128]⟩
abbrev S128x512 : Shape := ⟨2, ![128, 512]⟩
abbrev S128x8192 : Shape := ⟨2, ![128, 8192]⟩
abbrev S128x1 : Shape := ⟨2, ![128, 1]⟩
abbrev S1x1x128 : Shape := ⟨3, ![1, 1, 128]⟩
abbrev S1x128x8192 : Shape := ⟨3, ![1, 128, 8192]⟩
abbrev S1x1x1 : Shape := ⟨3, ![1, 1, 1]⟩
abbrev S64x1x1 : Shape := ⟨3, ![64, 1, 1]⟩
abbrev S64 : Shape := ⟨1, ![64]⟩

abbrev nBuf : Space → Nat
  | .hbm => 18
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S1, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S64x1x128, .f32⟩
  | .hbm, ⟨13, _⟩ => ⟨S64x1x1, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S8192x512, .f32⟩
  | .local _ .vmem, ⟨3, _⟩ => ⟨S128x8192, .f32⟩
  | .local _ .vmem, ⟨4, _⟩ => ⟨S128x8192, .f32⟩
  | .local _ .vmem, ⟨5, _⟩ => ⟨S128x1, .f32⟩
  | .local _ .vmem, ⟨6, _⟩ => ⟨S128x1, .f32⟩
  | .local _ .vmem, ⟨7, _⟩ => ⟨S1x8192, .f32⟩
  | .local _ .vmem, ⟨8, _⟩ => ⟨S1x1x128, .f32⟩
  | .local _ .vmem, ⟨9, _⟩ => ⟨S1x1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S8192x512_S8192_d1 : S8192x512.ReducesTo [1] S8192
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  inb_S128x512_S128x512_0_0 : ∀ a, (![0, 0] : Fin 2 → Nat) a + S128x512.size a ≤ S128x512.size a
  h_S128x512 : 0 < S128x512.numel
  inb_S8192x512_S8192x512_0_0 : ∀ a, (![0, 0] : Fin 2 → Nat) a + S8192x512.size a ≤ S8192x512.size a
  h_S8192x512 : 0 < S8192x512.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  inb_S128x8192_S128x8192_0_0 : ∀ a, (![0, 0] : Fin 2 → Nat) a + S128x8192.size a ≤ S128x8192.size a
  h_S128x8192 : 0 < S128x8192.numel
  shapeCasts_S128x8192_S1x128x8192 : S128x8192.ShapeCasts S1x128x8192
  reduces_S1x128x8192_S1 : S1x128x8192.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S64x1x128_S64x1x1_0_0_0 : S64x1x128.Slices ![0, 0, 0] S64x1x1
  shapeCasts_S64x1x1_S64 : S64x1x1.ShapeCasts S64
  reducesTo_S64_S_d0 : S64.ReducesTo [0] S_
  dot_S128x512_S8192x512_S128x8192_1_1_0_0_n_n_wf : DotDims.WF S128x512 S8192x512 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .f32 = 32 ∨ (Rect.block (s := S8192x512) S8192x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .f32 = 32 ∨ (Rect.block (s := S8192x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S64x1x128.size a
  hwx0_5 : ∀ i : grid0.Coords, EltTy.bits .f32 = 32 ∨ (Rect.block (s := S64x1x128) S1x1x128.size (cc0_transform_5 i) (hinb0_5 i)).WholeWords (EltTy.packing .f32)

variable [Facts₀]

def dot_S128x512_S8192x512_S128x8192_1_1_0_0_n_n : DotDims S128x512 S8192x512 S128x8192 where
  lhsContracting := [1]
  rhsContracting := [1]
  lhsNonContracting := [0]
  rhsNonContracting := [0]
  lhsBatch := []
  rhsBatch := []
  wf := dot_S128x512_S8192x512_S128x8192_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S1 : Shape := ⟨1, ![1]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S1, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S_, .f32⟩
  | .hbm, ⟨17, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.KBody.lean ====
/-
  The kernel region of the kernel's program as printed, read at machine words, point by point.

  The grid has 64 points; point t works on rows 128·t … 128·t + 127. The pipeline hands the body six staging
  buffers: the block of 128 rows of the embedding (window 0), the whole embedding (window 1), the block of 128
  rows of the similarity matrix (window 2), the block's 128 reciprocal norms as a column (window 3), all 8192
  reciprocal norms as a row (window 4), and the output slot of 128 lanes (window 5). The body reads the five
  inputs, leaves them as they were, and stores into the output slot one number repeated on every lane: the sum
  over the block of (Gram entry · product of the two reciprocal norms · similarity).

  Windows 0 and 1 read the same array (the embedding). Each holds half of the array's share; a read needs no more.
-/
import proofs.«173337_j70222715290004_1_alg».proof.Proof.Gen.Kernel.Launch
import proofs.«173337_j70222715290004_1_alg».proof.Proof.Gen.Kernel.Skeleton
import proofs.«173337_j70222715290004_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s buffer contents after the nine host operations that precede the region (the row norms, their
    reciprocals, and the two reshapes of the reciprocals). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After the body at point `t` each input's staging buffer holds its block, and the output slot holds the body's
    one stored value computed from the five input blocks. The embedding's share is split between windows 0 and 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (iblk m c 0 t) (iblk m c 1 t) (iblk m c 3 t) (iblk m c 4 t) (iblk m c 2 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = k0_pay1 (iblk m c 0 t) (iblk m c 1 t) (iblk m c 3 t) (iblk m c 4 t) (iblk m c 2 t) := by
  dsimp only [dats]

/-- The shares the windows hold their arrays at. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-! ## The buffers' contents when the region is left -/

/-- Core `c`'s buffer contents after the region: the output array as the 64 write-backs leave it, every other buffer
    as the region found it (the inputs are only read). -/
def Wfin (c : Dev nD) : Valuation τ sig (Elt F) := fun b =>
  if h : Proc.devRef .tc main_v7 = b then
    cast (congrArg (fun b' : DevRef τ sig => b'.ty.Contents (Elt F)) h) ((dats m 0 c).arrAt 5 cfg0.N)
  else V0 m c b

theorem Wfin_v7 (c : Dev nD) : Wfin m c (Proc.devRef .tc main_v7) = (dats m 0 c).arrAt 5 cfg0.N := by
  unfold Wfin; rw [dif_pos rfl]; rfl

theorem Wfin_of_ne (c : Dev nD) (b : DevRef τ sig) (hb : Proc.devRef .tc main_v7 ≠ b) : Wfin m c b = V0 m c b := by
  unfold Wfin; rw [dif_neg hb]

/-! ## Each input's staging buffer holds its block -/

/-- An input window's current staging buffer holds its block at every point, fetched there or not: where it is not
    fetched its block index has not moved since the point before, and the body left the block in place. Windows 1
    and 4 (the whole embedding, all the reciprocal norms) are fetched at the first point only; their index is constant. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body's accesses: each buffer whole, at offset zero -/

theorem bodyZeros2 : (![0, 0] : Fin 2 → Nat) = fun _ => 0 := funext fun a => by fin_cases a <;> rfl
theorem bodyZeros3 : (![0, 0, 0] : Fin 3 → Nat) = fun _ => 0 := funext fun a => by fin_cases a <;> rfl

/-- The output slot's one store covers the slot. -/
theorem body_cover_out (p : Vec F S1x1x128 .f32) (y : S1x1x128.Idx) :
    ∃ pc ∈ ([⟨Rect.unit (s := S1x1x128) ![0, 0, 0] S1x1x128.size inb_S1x1x128_S1x1x128_0_0_0, p⟩] : List (View.Piece (Elt F) S1x1x128 .f32)), y ∈ pc.1.set :=
  ⟨_, List.mem_singleton_self _, View.mem_set_unit_zero bodyZeros3 inb_S1x1x128_S1x1x128_0_0_0 y⟩

/-! ## The body's triple -/

set_option maxHeartbeats 1000000 in
/-- The body on six whole staging buffers, the five inputs' at contents x0 … x4 and the output slot's at anything, runs
    to the continuation holding the inputs' as they were and the output slot at the one stored value: a load through
    the whole buffer at offset zero reads the contents, and one store through the whole slot leaves its value. -/
theorem sound_kernel (c : Dev nD) (E : Set ℕ) (i : grid0.Coords)
    (arg1 : Memref sig .tc .vmem S128x512 .f32) (harg1 : arg1.IsWhole)
    (arg2 : Memref sig .tc .vmem S8192x512 .f32) (harg2 : arg2.IsWhole)
    (arg3 : Memref sig .tc .vmem S128x8192 .f32) (harg3 : arg3.IsWhole)
    (arg4 : Memref sig .tc .vmem S128x1 .f32) (harg4 : arg4.IsWhole)
    (arg5 : Memref sig .tc .vmem S1x8192 .f32) (harg5 : arg5.IsWhole)
    (arg6 : Memref sig .tc .vmem S1x1x128 .f32) (harg6 : arg6.IsWhole)
    (x0 : Vec F S128x512 .f32) (x1 : Vec F S8192x512 .f32) (x2 : Vec F S128x8192 .f32)
    (x3 : Vec F S128x1 .f32) (x4 : Vec F S1x8192 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k0_pay1 x0 x1 x3 x4 x2)) -∗ K ⟨⟩))
      ⊢ wp frame (wpE (defs₀ (F := F)) Variants.none c none) E
          (cc0__simloss_kernel i arg1 harg1 arg2 harg2 arg3 harg3 arg4 harg4 arg5 harg5 arg6 harg6) K := by
  simp only [cc0__simloss_kernel_eq_skeleton]; unfold cc0__simloss_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (body_cover_out _), View.canon_unit_zero (S := S1x1x128) bodyZeros3]
  simp only [View.readAt_eq_ld, View.ld_unit_zero (S := S128x512) bodyZeros2, View.ld_unit_zero (S := S8192x512) bodyZeros2,
    View.ld_unit_zero (S := S128x8192) bodyZeros2, View.ld_unit_zero (S := S128x1) bodyZeros2, View.ld_unit_zero (S := S1x8192) bodyZeros2]

/-! ## The body obligation, at a generic point -/

/-- What the body is called with at point t: the invariant, what the core owes, and the six current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread (nothing is owed at any point, and the invariant is the same at every point). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-! ## The body obligation -/

/-- At every grid point the body, called on the current staging buffers, runs to the end, leaves the inputs'
    buffers as it found them and the output slot at the stored value. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  The run of the kernel's program as printed, read at machine words: nine host operations, the kernel region, five host operations.

  Every weakly fair execution from a memory with all semaphores at zero terminates without a fault; the three
  argument arrays end as they began, and the result is what the five closing host operations compute from the
  output array the region leaves.

  The embedding is handed to the region through two windows. At the region's entry the buffer's full share is cut
  into its two halves, one for each window; at the exit both windows hold the same contents (they only read), so
  the halves join to the full share again and the closing host operations run over whole buffers.
-/
import proofs.«173337_j70222715290004_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing, and @main is: host operations, the region, host operations -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the five closing operations, at the contents the nine opening
    operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' arrays, one by one -/

/-- The five buffers behind the six windows. -/
theorem arrImage : Finset.univ.image (Pipeline.arrRef spec0)
    = ([main_arg0, main_arg1, main_v5, main_v6, main_v7] : List (Ref sig .tc)).toFinset := by decide

/-- The buffers behind the windows, each whole at the full share. -/
theorem arrBufs_chain (c : Dev nD) (R : (b : Ref sig .tc) → Buf (Elt F) ((c.tc : Thread nD τ).loc b)) :
    (Pipeline.arrBufs spec0 c R : sProp 𝕄)
      = iprop((((c.tc : Thread nD τ).loc main_arg0) ↦{fullShare} R main_arg0) ∗ (((c.tc : Thread nD τ).loc main_arg1) ↦{fullShare} R main_arg1)
          ∗ (((c.tc : Thread nD τ).loc main_v5) ↦{fullShare} R main_v5) ∗ (((c.tc : Thread nD τ).loc main_v6) ↦{fullShare} R main_v6)
          ∗ (((c.tc : Thread nD τ).loc main_v7) ↦{fullShare} R main_v7)) := by
  unfold Pipeline.arrBufs
  exact bigSep_eq_bigSepL_of_eq [main_arg0, main_arg1, main_v5, main_v6, main_v7] arrImage (by decide) _

/-- The six windows' arrays at the shares the proof data holds them at: the embedding's two halves, the rest whole. -/
theorem arrays_chain (c : Dev nD) (R : (b : Ref sig .tc) → Buf (Elt F) ((c.tc : Thread nD τ).loc b)) :
    ((dats m 0 c).arrays (fun w => R (Pipeline.arrRef spec0 w)) : sProp 𝕄)
      = iprop((((c.tc : Thread nD τ).loc main_arg0) ↦{fullShare.left} R main_arg0) ∗ (((c.tc : Thread nD τ).loc main_arg0) ↦{fullShare.right} R main_arg0)
          ∗ (((c.tc : Thread nD τ).loc main_arg1) ↦{fullShare} R main_arg1)
          ∗ (((c.tc : Thread nD τ).loc main_v5) ↦{fullShare} R main_v5) ∗ (((c.tc : Thread nD τ).loc main_v6) ↦{fullShare} R main_v6)
          ∗ (((c.tc : Thread nD τ).loc main_v7) ↦{fullShare} R main_v7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- Cutting the embedding's share in two makes the windows' arrays out of the buffers behind them, -/
theorem arrays_of_arrBufs (c : Dev nD) (R : (b : Ref sig .tc) → Buf (Elt F) ((c.tc : Thread nD τ).loc b)) :
    (Pipeline.arrBufs spec0 c R : sProp 𝕄) ⊢ (dats m 0 c).arrays (fun w => R (Pipeline.arrRef spec0 w)) := by
  rw [arrBufs_chain, arrays_chain]
  iintro ⟨H0, H1, H2, H3, H4⟩
  icases (pointsTo_share (PosShare.mem_left_op_right fullShare)).1 $$ H0 with ⟨Hl, Hr⟩
  isplitl [Hl]; · iexact Hl
  isplitl [Hr]; · iexact Hr
  isplitl [H1]; · iexact H1
  isplitl [H2]; · iexact H2
  isplitl [H3]; · iexact H3
  iexact H4

/-- and joining the two halves gives the buffers back. -/
theorem arrBufs_of_arrays (c : Dev nD) (R : (b : Ref sig .tc) → Buf (Elt F) ((c.tc : Thread nD τ).loc b)) :
    ((dats m 0 c).arrays (fun w => R (Pipeline.arrRef spec0 w)) : sProp 𝕄) ⊢ Pipeline.arrBufs spec0 c R := by
  rw [arrBufs_chain, arrays_chain]
  iintro ⟨Hl, Hr, H1, H2, H3, H4⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact H4

/-! ## What the host operations leave alone -/

/-- None of the nine opening operations writes an argument array: the region finds each as launched. -/
theorem V_of_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    rcases hb with rfl | rfl | rfl
    all_goals
      repeat' apply And.intro
      all_goals exact StableHlo.devRef_ne_of_ne (by decide)))

/-- The five closing operations write only their own results: every other buffer keeps its contents. -/
theorem tail_keeps (W : Valuation τ sig (Elt F)) (b : Ref sig .tc)
    (hb : b ≠ main_v8 ∧ b ≠ main_v9 ∧ b ≠ main_cst_1 ∧ b ≠ main_v10 ∧ b ≠ main_v11) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

/-! ## The region's exit -/

/-- The exit contents read at a TensorCore reference. -/
abbrev Rfin (c : Dev nD) (b : Ref sig .tc) : Buf (Elt F) ((c.tc : Thread nD τ).loc b) := Wfin m c (Proc.devRef .tc b)

/-- After the last point every window's array holds the exit contents: the inputs are never written, and the output
    array is the exit contents by definition. -/
theorem arrAt_last (c : Dev nD) : (fun w => (dats m 0 c).arrAt w cfg0.N) = fun w => Rfin m c (Pipeline.arrRef spec0 w) := by
  funext w
  match w with
  | ⟨0, _⟩ => exact ((dats m 0 c).arrAt_in 0 rfl _).trans (Wfin_of_ne m c (Proc.devRef .tc main_arg0) (StableHlo.devRef_ne_of_ne (by decide))).symm
  | ⟨1, _⟩ => exact ((dats m 0 c).arrAt_in 1 rfl _).trans (Wfin_of_ne m c (Proc.devRef .tc main_arg0) (StableHlo.devRef_ne_of_ne (by decide))).symm
  | ⟨2, _⟩ => exact ((dats m 0 c).arrAt_in 2 rfl _).trans (Wfin_of_ne m c (Proc.devRef .tc main_arg1) (StableHlo.devRef_ne_of_ne (by decide))).symm
  | ⟨3, _⟩ => exact ((dats m 0 c).arrAt_in 3 rfl _).trans (Wfin_of_ne m c (Proc.devRef .tc main_v5) (StableHlo.devRef_ne_of_ne (by decide))).symm
  | ⟨4, _⟩ => exact ((dats m 0 c).arrAt_in 4 rfl _).trans (Wfin_of_ne m c (Proc.devRef .tc main_v6) (StableHlo.devRef_ne_of_ne (by decide))).symm
  | ⟨5, _⟩ => exact (Wfin_v7 m c).symm

/-- The closing operations leave every window's array as the region left it. -/
theorem arrAt_after_tail (c : Dev nD) :
    (fun w => (dats m 0 c).arrAt w cfg0.N) = fun w => StableHlo.after hostOps1 (Wfin m c) (Proc.devRef .tc (Pipeline.arrRef spec0 w)) := by
  rw [arrAt_last]
  funext w
  match w with
  | ⟨0, _⟩ => exact (tail_keeps (Wfin m c) main_arg0 (by decide)).symm
  | ⟨1, _⟩ => exact (tail_keeps (Wfin m c) main_arg0 (by decide)).symm
  | ⟨2, _⟩ => exact (tail_keeps (Wfin m c) main_arg1 (by decide)).symm
  | ⟨3, _⟩ => exact (tail_keeps (Wfin m c) main_v5 (by decide)).symm
  | ⟨4, _⟩ => exact (tail_keeps (Wfin m c) main_v6 (by decide)).symm
  | ⟨5, _⟩ => exact (tail_keeps (Wfin m c) main_v7 (by decide)).symm

/-- The buffers that bypass the region are where the exit contents and the entry contents agree. -/
theorem rest_exit (c : Dev nD) :
    (Pipeline.unscopedRest (Ix := Unit) (Name := ℕ) (U := UR sig nD τ) (Lvl := ℕ) spec0 c (V m c) : sProp 𝕄)
      = Pipeline.unscopedRest spec0 c (Rfin m c) := by
  unfold Pipeline.unscopedRest
  refine bigSep_congr fun b hb => ?_
  rw [show Rfin m c b = V m c b from Wfin_of_ne m c _ (StableHlo.devRef_ne_of_ne fun e => ?_)]
  exact (Finset.mem_sdiff.mp hb).2 (Finset.mem_image.mpr ⟨5, Finset.mem_univ _, e⟩)

/-! ## The closing host operations, run from the region's exit -/

/-- Each closing operation touches unscoped TensorCore buffers only, and allocates nothing. -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- At the exit the windows' arrays and the bypassing buffers are all the unscoped buffers, whole, at the exit contents: -/
theorem exit_held (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (Wfin m c) : sProp 𝕄) := by
  rw [← Pipeline.unscopedBufs_held (Ix := Unit) (Name := ℕ) (U := UR sig nD τ) (Lvl := ℕ) c (Wfin m c),
    Pipeline.unscopedBufs_split₀ cfgs (0 : Fin 1) winFacts₀0.arr_unscoped c, rest_exit,
    show ((dats m 0 c).arrAt · cfg0.N) = _ from arrAt_last m c]
  exact sep_mono (arrBufs_of_arrays m c (Rfin m c)) .rfl

/-- and after the closing operations they are the windows' arrays, unchanged, and the bypassing buffers at what the
    operations computed. -/
theorem tail_held (c : Dev nD) :
    (StableHlo.held (c.tc : Thread nD τ) (Pipeline.ucRefs τ sig) (StableHlo.after hostOps1 (Wfin m c)) : sProp 𝕄)
      ⊢ iprop((dats m 0 c).arrays ((dats m 0 c).arrAt · cfg0.N)
        ∗ Pipeline.unscopedRest (Ix := Unit) (Name := ℕ) (U := UR sig nD τ) (Lvl := ℕ) spec0 c
            (fun b => StableHlo.after hostOps1 (Wfin m c) (Proc.devRef .tc b))) := by
  rw [← Pipeline.unscopedBufs_held (Ix := Unit) (Name := ℕ) (U := UR sig nD τ) (Lvl := ℕ) c (StableHlo.after hostOps1 (Wfin m c)),
    Pipeline.unscopedBufs_split₀ cfgs (0 : Fin 1) winFacts₀0.arr_unscoped c,
    show ((dats m 0 c).arrAt · cfg0.N) = _ from arrAt_after_tail m c]
  exact sep_mono (arrays_of_arrBufs m c _) .rfl

set_option backward.isDefEq.respectTransparency.types false in
/-- The five closing operations run from the region's exit and hand the windows' arrays back as they were. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c
                  (fun b => StableHlo.after hostOps1 (Wfin m c) (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain [StableHlo.seq hostOps1]) Q' := by
  rw [Pipeline.unscopedRestP_none, Pipeline.unscopedRestP_none]
  rw [show Pipeline.chain [StableHlo.seq (hostOps1 (F := F))]
      = Pipeline.chain (([hostOps1] : List (List (HloOp τ sig (Elt F)))).map StableHlo.seq ++ []) from rfl]
  iintro ⟨Hk, Hb, Harr, HZ⟩
  ihave Hh := (exit_held m c) $$ [Harr HZ]
  · isplitl [Harr] <;> iassumption
  iapply (Pipeline.wp_seqs_then (fun q => (cfgs q).toPCfg (Val := Elt F)) defs₀ Variants.none c (Pipeline.ucRefs τ sig) []
    [hostOps1] tail_sub tail_fresh (Wfin m c)) $$ [Hb Hh]
  · isplitl [Hb] <;> iassumption
  iintro Hb
  rw [Pipeline.chain_nil, wp_pure]
  imodintro
  iapply Hk
  icases Hb with ⟨-, H⟩
  rw [show (([hostOps1] : List (List (HloOp τ sig (Elt F)))).flatten) = hostOps1 from by simp]
  iapply (tail_held m c)
  iexact H

/-! ## The run -/

/-- A buffer that is unscoped and no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

set_option backward.isDefEq.respectTransparency.types false in
/-- The run: the result buffer holds the closing host operations' value at the region's exit contents, and the
    arguments are unchanged. -/
theorem run_main : θ_run defs (onTc (τ := τ) (main (F := F))) ⟨m, fun _ => 0, ρ⟩ (fun r => ∀ c : Dev nD,
      r.2.mem ((c.tc : Thread nD τ).loc main_v11) = StableHlo.after hostOps1 (Wfin m c) (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  refine Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := ?hu) (V := V m) (hmain := hmain m Variants.none)
    (hsplit := fun c => arrays_of_arrBufs m c (V m c)) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
        (fun b => StableHlo.after hostOps1 (Wfin m c) (Proc.devRef .tc b)))
    (hX := ?hX) (hin := ?hin) (hout := ?hout) (htail := fun c Q' => tail_run m c Q')
    (QY := fun c s => ∀ b ∈ Pipeline.restRefsP sig Pipeline.Prefetch.none spec0,
      s.mem ((c.tc : Thread nD τ).loc b) = StableHlo.after hostOps1 (Wfin m c) (Proc.devRef .tc b))
    (hY := ?hY) (hQ := ?hQ)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hX =>
    intro c
    iintro ⟨HU, -, -, -, Hp, -⟩; imodintro
    isplitl [Hp]; · iexists _; iexact Hp
    iexact HU
  case hin =>
    intro c
    show _ ⊢ Pipeline.ΦA spec0 c
    unfold Pipeline.ΦA
    iintro ⟨Hp, -, Hr⟩
    isplitl [Hr] <;> iassumption
  case hout =>
    intro c
    show Pipeline.ΦA spec0 c ⊢ _
    rw [Pipeline.ownSems0_none]; unfold Pipeline.ΦA
    iintro ⟨Hr, Hp⟩
    isplitl [Hp]; · iexact Hp
    isplitr; · iempintro
    iexact Hr
  case hY =>
    intro c s'
    iintro ⟨-, HU, HSI⟩
    unfold Pipeline.unscopedRestP
    imodintro
    iapply (pointsTo_read_all (Pipeline.restRefsP sig Pipeline.Prefetch.none spec0) (fun b => (c.tc : Thread nD τ).loc b)
      (fun b => StableHlo.after hostOps1 (Wfin m c) (Proc.devRef .tc b)) s')
    isplitl [HU] <;> iassumption
  case hQ =>
    intro s h c
    refine ⟨(h c).2.2 main_v11 (mem_rest main_v11 (by decide) (by decide)), ?_, ?_, ?_⟩
    · exact (((h c).1 0).trans ((dats m 0 c).arrAt_in 0 rfl _)).trans (V_of_arg m c main_arg0 (.inl rfl))
    · exact (((h c).1 2).trans ((dats m 0 c).arrAt_in 2 rfl _)).trans (V_of_arg m c main_arg1 (.inr (.inl rfl)))
    · exact ((((h c).2.2 main_arg2 (mem_rest main_arg2 (by decide) (by decide))).trans
        (tail_keeps (Wfin m c) main_arg2 (by decide))).trans
        (Wfin_of_ne m c (Proc.devRef .tc main_arg2) (StableHlo.devRef_ne_of_ne (by decide)))).trans
        (V_of_arg m c main_arg2 (.inr (.inr rfl)))

end Cert.Kernel.Hand

end
-- ==== Proof.KIBody.lean ====
/-
  The kernel region of the idealized kernel's program, point by point.

  The grid has 64 points; point t works on rows 128·t … 128·t + 127. The pipeline hands the body six staging
  buffers: the block of 128 rows of the embedding (window 0), the whole embedding (window 1), the block of 128
  rows of the similarity matrix (window 2), the block's 128 reciprocal norms as a column (window 3), all 8192
  reciprocal norms as a row (window 4), and the output slot of 128 lanes (window 5). The body reads the five
  inputs, leaves them as they were, and stores into the output slot one number repeated on every lane: the sum
  over the block of (Gram entry · product of the two reciprocal norms · similarity).

  Windows 0 and 1 read the same array (the embedding). Each holds half of the array's share; a read needs no more.
-/
import proofs.«173337_j70222715290004_1_alg».proof.Proof.Gen.KernelIdeal.Launch
import proofs.«173337_j70222715290004_1_alg».proof.Proof.Gen.KernelIdeal.Skeleton
import proofs.«173337_j70222715290004_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s buffer contents after the nine host operations that precede the region (the row norms, their
    reciprocals, and the two reshapes of the reciprocals). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After the body at point `t` each input's staging buffer holds its block, and the output slot holds the body's
    one stored value computed from the five input blocks. The embedding's share is split between windows 0 and 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (iblk m c 0 t) (iblk m c 1 t) (iblk m c 3 t) (iblk m c 4 t) (iblk m c 2 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = k0_pay1 (iblk m c 0 t) (iblk m c 1 t) (iblk m c 3 t) (iblk m c 4 t) (iblk m c 2 t) := by
  dsimp only [dats]

/-- The shares the windows hold their arrays at. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-! ## The buffers' contents when the region is left -/

/-- Core `c`'s buffer contents after the region: the output array as the 64 write-backs leave it, every other buffer
    as the region found it (the inputs are only read). -/
def Wfin (c : Dev nD) : Valuation τ sig (Elt F) := fun b =>
  if h : Proc.devRef .tc main_v7 = b then
    cast (congrArg (fun b' : DevRef τ sig => b'.ty.Contents (Elt F)) h) ((dats m 0 c).arrAt 5 cfg0.N)
  else V0 m c b

theorem Wfin_v7 (c : Dev nD) : Wfin m c (Proc.devRef .tc main_v7) = (dats m 0 c).arrAt 5 cfg0.N := by
  unfold Wfin; rw [dif_pos rfl]; rfl

theorem Wfin_of_ne (c : Dev nD) (b : DevRef τ sig) (hb : Proc.devRef .tc main_v7 ≠ b) : Wfin m c b = V0 m c b := by
  unfold Wfin; rw [dif_neg hb]

/-! ## Each input's staging buffer holds its block -/

/-- An input window's current staging buffer holds its block at every point, fetched there or not: where it is not
    fetched its block index has not moved since the point before, and the body left the block in place. Windows 1
    and 4 (the whole embedding, all the reciprocal norms) are fetched at the first point only; their index is constant. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body's accesses: each buffer whole, at offset zero -/

theorem bodyZeros2 : (![0, 0] : Fin 2 → Nat) = fun _ => 0 := funext fun a => by fin_cases a <;> rfl
theorem bodyZeros3 : (![0, 0, 0] : Fin 3 → Nat) = fun _ => 0 := funext fun a => by fin_cases a <;> rfl

/-- The output slot's one store covers the slot. -/
theorem body_cover_out (p : Vec F S1x1x128 .f32) (y : S1x1x128.Idx) :
    ∃ pc ∈ ([⟨Rect.unit (s := S1x1x128) ![0, 0, 0] S1x1x128.size inb_S1x1x128_S1x1x128_0_0_0, p⟩] : List (View.Piece (Elt F) S1x1x128 .f32)), y ∈ pc.1.set :=
  ⟨_, List.mem_singleton_self _, View.mem_set_unit_zero bodyZeros3 inb_S1x1x128_S1x1x128_0_0_0 y⟩

/-! ## The body's triple -/

set_option maxHeartbeats 1000000 in
/-- The body on six whole staging buffers, the five inputs' at contents x0 … x4 and the output slot's at anything, runs
    to the continuation holding the inputs' as they were and the output slot at the one stored value: a load through
    the whole buffer at offset zero reads the contents, and one store through the whole slot leaves its value. -/
theorem sound_kernel (c : Dev nD) (E : Set ℕ) (i : grid0.Coords)
    (arg1 : Memref sig .tc .vmem S128x512 .f32) (harg1 : arg1.IsWhole)
    (arg2 : Memref sig .tc .vmem S8192x512 .f32) (harg2 : arg2.IsWhole)
    (arg3 : Memref sig .tc .vmem S128x8192 .f32) (harg3 : arg3.IsWhole)
    (arg4 : Memref sig .tc .vmem S128x1 .f32) (harg4 : arg4.IsWhole)
    (arg5 : Memref sig .tc .vmem S1x8192 .f32) (harg5 : arg5.IsWhole)
    (arg6 : Memref sig .tc .vmem S1x1x128 .f32) (harg6 : arg6.IsWhole)
    (x0 : Vec F S128x512 .f32) (x1 : Vec F S8192x512 .f32) (x2 : Vec F S128x8192 .f32)
    (x3 : Vec F S128x1 .f32) (x4 : Vec F S1x8192 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k0_pay1 x0 x1 x3 x4 x2)) -∗ K ⟨⟩))
      ⊢ wp frame (wpE (defs₀ (F := F)) Variants.none c none) E
          (cc0__simloss_kernel i arg1 harg1 arg2 harg2 arg3 harg3 arg4 harg4 arg5 harg5 arg6 harg6) K := by
  simp only [cc0__simloss_kernel_eq_skeleton]; unfold cc0__simloss_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (body_cover_out _), View.canon_unit_zero (S := S1x1x128) bodyZeros3]
  simp only [View.readAt_eq_ld, View.ld_unit_zero (S := S128x512) bodyZeros2, View.ld_unit_zero (S := S8192x512) bodyZeros2,
    View.ld_unit_zero (S := S128x8192) bodyZeros2, View.ld_unit_zero (S := S128x1) bodyZeros2, View.ld_unit_zero (S := S1x8192) bodyZeros2]

/-! ## The body obligation, at a generic point -/

/-- What the body is called with at point t: the invariant, what the core owes, and the six current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread (nothing is owed at any point, and the invariant is the same at every point). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-! ## The body obligation -/

/-- At every grid point the body, called on the current staging buffers, runs to the end, leaves the inputs'
    buffers as it found them and the output slot at the stored value. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The run of the idealized kernel's program: nine host operations, the kernel region, five host operations.

  Every weakly fair execution from a memory with all semaphores at zero terminates without a fault; the three
  argument arrays end as they began, and the result is what the five closing host operations compute from the
  output array the region leaves.

  The embedding is handed to the region through two windows. At the region's entry the buffer's full share is cut
  into its two halves, one for each window; at the exit both windows hold the same contents (they only read), so
  the halves join to the full share again and the closing host operations run over whole buffers.
-/
import proofs.«173337_j70222715290004_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing, and @main is: host operations, the region, host operations -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the five closing operations, at the contents the nine opening
    operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' arrays, one by one -/

/-- The five buffers behind the six windows. -/
theorem arrImage : Finset.univ.image (Pipeline.arrRef spec0)
    = ([main_arg0, main_arg1, main_v5, main_v6, main_v7] : List (Ref sig .tc)).toFinset := by decide

/-- The buffers behind the windows, each whole at the full share. -/
theorem arrBufs_chain (c : Dev nD) (R : (b : Ref sig .tc) → Buf (Elt F) ((c.tc : Thread nD τ).loc b)) :
    (Pipeline.arrBufs spec0 c R : sProp 𝕄)
      = iprop((((c.tc : Thread nD τ).loc main_arg0) ↦{fullShare} R main_arg0) ∗ (((c.tc : Thread nD τ).loc main_arg1) ↦{fullShare} R main_arg1)
          ∗ (((c.tc : Thread nD τ).loc main_v5) ↦{fullShare} R main_v5) ∗ (((c.tc : Thread nD τ).loc main_v6) ↦{fullShare} R main_v6)
          ∗ (((c.tc : Thread nD τ).loc main_v7) ↦{fullShare} R main_v7)) := by
  unfold Pipeline.arrBufs
  exact bigSep_eq_bigSepL_of_eq [main_arg0, main_arg1, main_v5, main_v6, main_v7] arrImage (by decide) _

/-- The six windows' arrays at the shares the proof data holds them at: the embedding's two halves, the rest whole. -/
theorem arrays_chain (c : Dev nD) (R : (b : Ref sig .tc) → Buf (Elt F) ((c.tc : Thread nD τ).loc b)) :
    ((dats m 0 c).arrays (fun w => R (Pipeline.arrRef spec0 w)) : sProp 𝕄)
      = iprop((((c.tc : Thread nD τ).loc main_arg0) ↦{fullShare.left} R main_arg0) ∗ (((c.tc : Thread nD τ).loc main_arg0) ↦{fullShare.right} R main_arg0)
          ∗ (((c.tc : Thread nD τ).loc main_arg1) ↦{fullShare} R main_arg1)
          ∗ (((c.tc : Thread nD τ).loc main_v5) ↦{fullShare} R main_v5) ∗ (((c.tc : Thread nD τ).loc main_v6) ↦{fullShare} R main_v6)
          ∗ (((c.tc : Thread nD τ).loc main_v7) ↦{fullShare} R main_v7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- Cutting the embedding's share in two makes the windows' arrays out of the buffers behind them, -/
theorem arrays_of_arrBufs (c : Dev nD) (R : (b : Ref sig .tc) → Buf (Elt F) ((c.tc : Thread nD τ).loc b)) :
    (Pipeline.arrBufs spec0 c R : sProp 𝕄) ⊢ (dats m 0 c).arrays (fun w => R (Pipeline.arrRef spec0 w)) := by
  rw [arrBufs_chain, arrays_chain]
  iintro ⟨H0, H1, H2, H3, H4⟩
  icases (pointsTo_share (PosShare.mem_left_op_right fullShare)).1 $$ H0 with ⟨Hl, Hr⟩
  isplitl [Hl]; · iexact Hl
  isplitl [Hr]; · iexact Hr
  isplitl [H1]; · iexact H1
  isplitl [H2]; · iexact H2
  isplitl [H3]; · iexact H3
  iexact H4

/-- and joining the two halves gives the buffers back. -/
theorem arrBufs_of_arrays (c : Dev nD) (R : (b : Ref sig .tc) → Buf (Elt F) ((c.tc : Thread nD τ).loc b)) :
    ((dats m 0 c).arrays (fun w => R (Pipeline.arrRef spec0 w)) : sProp 𝕄) ⊢ Pipeline.arrBufs spec0 c R := by
  rw [arrBufs_chain, arrays_chain]
  iintro ⟨Hl, Hr, H1, H2, H3, H4⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact H4

/-! ## What the host operations leave alone -/

/-- None of the nine opening operations writes an argument array: the region finds each as launched. -/
theorem V_of_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    rcases hb with rfl | rfl | rfl
    all_goals
      repeat' apply And.intro
      all_goals exact StableHlo.devRef_ne_of_ne (by decide)))

/-- The five closing operations write only their own results: every other buffer keeps its contents. -/
theorem tail_keeps (W : Valuation τ sig (Elt F)) (b : Ref sig .tc)
    (hb : b ≠ main_v8 ∧ b ≠ main_v9 ∧ b ≠ main_cst_1 ∧ b ≠ main_v10 ∧ b ≠ main_v11) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

/-! ## The region's exit -/

/-- The exit contents read at a TensorCore reference. -/
abbrev Rfin (c : Dev nD) (b : Ref sig .tc) : Buf (Elt F) ((c.tc : Thread nD τ).loc b) := Wfin m c (Proc.devRef .tc b)

/-- After the last point every window's array holds the exit contents: the inputs are never written, and the output
    array is the exit contents by definition. -/
theorem arrAt_last (c : Dev nD) : (fun w => (dats m 0 c).arrAt w cfg0.N) = fun w => Rfin m c (Pipeline.arrRef spec0 w) := by
  funext w
  match w with
  | ⟨0, _⟩ => exact ((dats m 0 c).arrAt_in 0 rfl _).trans (Wfin_of_ne m c (Proc.devRef .tc main_arg0) (StableHlo.devRef_ne_of_ne (by decide))).symm
  | ⟨1, _⟩ => exact ((dats m 0 c).arrAt_in 1 rfl _).trans (Wfin_of_ne m c (Proc.devRef .tc main_arg0) (StableHlo.devRef_ne_of_ne (by decide))).symm
  | ⟨2, _⟩ => exact ((dats m 0 c).arrAt_in 2 rfl _).trans (Wfin_of_ne m c (Proc.devRef .tc main_arg1) (StableHlo.devRef_ne_of_ne (by decide))).symm
  | ⟨3, _⟩ => exact ((dats m 0 c).arrAt_in 3 rfl _).trans (Wfin_of_ne m c (Proc.devRef .tc main_v5) (StableHlo.devRef_ne_of_ne (by decide))).symm
  | ⟨4, _⟩ => exact ((dats m 0 c).arrAt_in 4 rfl _).trans (Wfin_of_ne m c (Proc.devRef .tc main_v6) (StableHlo.devRef_ne_of_ne (by decide))).symm
  | ⟨5, _⟩ => exact (Wfin_v7 m c).symm

/-- The closing operations leave every window's array as the region left it. -/
theorem arrAt_after_tail (c : Dev nD) :
    (fun w => (dats m 0 c).arrAt w cfg0.N) = fun w => StableHlo.after hostOps1 (Wfin m c) (Proc.devRef .tc (Pipeline.arrRef spec0 w)) := by
  rw [arrAt_last]
  funext w
  match w with
  | ⟨0, _⟩ => exact (tail_keeps (Wfin m c) main_arg0 (by decide)).symm
  | ⟨1, _⟩ => exact (tail_keeps (Wfin m c) main_arg0 (by decide)).symm
  | ⟨2, _⟩ => exact (tail_keeps (Wfin m c) main_arg1 (by decide)).symm
  | ⟨3, _⟩ => exact (tail_keeps (Wfin m c) main_v5 (by decide)).symm
  | ⟨4, _⟩ => exact (tail_keeps (Wfin m c) main_v6 (by decide)).symm
  | ⟨5, _⟩ => exact (tail_keeps (Wfin m c) main_v7 (by decide)).symm

/-- The buffers that bypass the region are where the exit contents and the entry contents agree. -/
theorem rest_exit (c : Dev nD) :
    (Pipeline.unscopedRest (Ix := Unit) (Name := ℕ) (U := UR sig nD τ) (Lvl := ℕ) spec0 c (V m c) : sProp 𝕄)
      = Pipeline.unscopedRest spec0 c (Rfin m c) := by
  unfold Pipeline.unscopedRest
  refine bigSep_congr fun b hb => ?_
  rw [show Rfin m c b = V m c b from Wfin_of_ne m c _ (StableHlo.devRef_ne_of_ne fun e => ?_)]
  exact (Finset.mem_sdiff.mp hb).2 (Finset.mem_image.mpr ⟨5, Finset.mem_univ _, e⟩)

/-! ## The closing host operations, run from the region's exit -/

/-- Each closing operation touches unscoped TensorCore buffers only, and allocates nothing. -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- At the exit the windows' arrays and the bypassing buffers are all the unscoped buffers, whole, at the exit contents: -/
theorem exit_held (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (Wfin m c) : sProp 𝕄) := by
  rw [← Pipeline.unscopedBufs_held (Ix := Unit) (Name := ℕ) (U := UR sig nD τ) (Lvl := ℕ) c (Wfin m c),
    Pipeline.unscopedBufs_split₀ cfgs (0 : Fin 1) winFacts₀0.arr_unscoped c, rest_exit,
    show ((dats m 0 c).arrAt · cfg0.N) = _ from arrAt_last m c]
  exact sep_mono (arrBufs_of_arrays m c (Rfin m c)) .rfl

/-- and after the closing operations they are the windows' arrays, unchanged, and the bypassing buffers at what the
    operations computed. -/
theorem tail_held (c : Dev nD) :
    (StableHlo.held (c.tc : Thread nD τ) (Pipeline.ucRefs τ sig) (StableHlo.after hostOps1 (Wfin m c)) : sProp 𝕄)
      ⊢ iprop((dats m 0 c).arrays ((dats m 0 c).arrAt · cfg0.N)
        ∗ Pipeline.unscopedRest (Ix := Unit) (Name := ℕ) (U := UR sig nD τ) (Lvl := ℕ) spec0 c
            (fun b => StableHlo.after hostOps1 (Wfin m c) (Proc.devRef .tc b))) := by
  rw [← Pipeline.unscopedBufs_held (Ix := Unit) (Name := ℕ) (U := UR sig nD τ) (Lvl := ℕ) c (StableHlo.after hostOps1 (Wfin m c)),
    Pipeline.unscopedBufs_split₀ cfgs (0 : Fin 1) winFacts₀0.arr_unscoped c,
    show ((dats m 0 c).arrAt · cfg0.N) = _ from arrAt_after_tail m c]
  exact sep_mono (arrays_of_arrBufs m c _) .rfl

set_option backward.isDefEq.respectTransparency.types false in
/-- The five closing operations run from the region's exit and hand the windows' arrays back as they were. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c
                  (fun b => StableHlo.after hostOps1 (Wfin m c) (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain [StableHlo.seq hostOps1]) Q' := by
  rw [Pipeline.unscopedRestP_none, Pipeline.unscopedRestP_none]
  rw [show Pipeline.chain [StableHlo.seq (hostOps1 (F := F))]
      = Pipeline.chain (([hostOps1] : List (List (HloOp τ sig (Elt F)))).map StableHlo.seq ++ []) from rfl]
  iintro ⟨Hk, Hb, Harr, HZ⟩
  ihave Hh := (exit_held m c) $$ [Harr HZ]
  · isplitl [Harr] <;> iassumption
  iapply (Pipeline.wp_seqs_then (fun q => (cfgs q).toPCfg (Val := Elt F)) defs₀ Variants.none c (Pipeline.ucRefs τ sig) []
    [hostOps1] tail_sub tail_fresh (Wfin m c)) $$ [Hb Hh]
  · isplitl [Hb] <;> iassumption
  iintro Hb
  rw [Pipeline.chain_nil, wp_pure]
  imodintro
  iapply Hk
  icases Hb with ⟨-, H⟩
  rw [show (([hostOps1] : List (List (HloOp τ sig (Elt F)))).flatten) = hostOps1 from by simp]
  iapply (tail_held m c)
  iexact H

/-! ## The run -/

/-- A buffer that is unscoped and no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

set_option backward.isDefEq.respectTransparency.types false in
/-- The run: the result buffer holds the closing host operations' value at the region's exit contents, and the
    arguments are unchanged. -/
theorem run_main : θ_run defs (onTc (τ := τ) (main (F := F))) ⟨m, fun _ => 0, ρ⟩ (fun r => ∀ c : Dev nD,
      r.2.mem ((c.tc : Thread nD τ).loc main_v11) = StableHlo.after hostOps1 (Wfin m c) (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  refine Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := ?hu) (V := V m) (hmain := hmain m Variants.none)
    (hsplit := fun c => arrays_of_arrBufs m c (V m c)) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
        (fun b => StableHlo.after hostOps1 (Wfin m c) (Proc.devRef .tc b)))
    (hX := ?hX) (hin := ?hin) (hout := ?hout) (htail := fun c Q' => tail_run m c Q')
    (QY := fun c s => ∀ b ∈ Pipeline.restRefsP sig Pipeline.Prefetch.none spec0,
      s.mem ((c.tc : Thread nD τ).loc b) = StableHlo.after hostOps1 (Wfin m c) (Proc.devRef .tc b))
    (hY := ?hY) (hQ := ?hQ)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hX =>
    intro c
    iintro ⟨HU, -, -, -, Hp, -⟩; imodintro
    isplitl [Hp]; · iexists _; iexact Hp
    iexact HU
  case hin =>
    intro c
    show _ ⊢ Pipeline.ΦA spec0 c
    unfold Pipeline.ΦA
    iintro ⟨Hp, -, Hr⟩
    isplitl [Hr] <;> iassumption
  case hout =>
    intro c
    show Pipeline.ΦA spec0 c ⊢ _
    rw [Pipeline.ownSems0_none]; unfold Pipeline.ΦA
    iintro ⟨Hr, Hp⟩
    isplitl [Hp]; · iexact Hp
    isplitr; · iempintro
    iexact Hr
  case hY =>
    intro c s'
    iintro ⟨-, HU, HSI⟩
    unfold Pipeline.unscopedRestP
    imodintro
    iapply (pointsTo_read_all (Pipeline.restRefsP sig Pipeline.Prefetch.none spec0) (fun b => (c.tc : Thread nD τ).loc b)
      (fun b => StableHlo.after hostOps1 (Wfin m c) (Proc.devRef .tc b)) s')
    isplitl [HU] <;> iassumption
  case hQ =>
    intro s h c
    refine ⟨(h c).2.2 main_v11 (mem_rest main_v11 (by decide) (by decide)), ?_, ?_, ?_⟩
    · exact (((h c).1 0).trans ((dats m 0 c).arrAt_in 0 rfl _)).trans (V_of_arg m c main_arg0 (.inl rfl))
    · exact (((h c).1 2).trans ((dats m 0 c).arrAt_in 2 rfl _)).trans (V_of_arg m c main_arg1 (.inr (.inl rfl)))
    · exact ((((h c).2.2 main_arg2 (mem_rest main_arg2 (by decide) (by decide))).trans
        (tail_keeps (Wfin m c) main_arg2 (by decide))).trans
        (Wfin_of_ne m c (Proc.devRef .tc main_arg2) (StableHlo.devRef_ne_of_ne (by decide)))).trans
        (V_of_arg m c main_arg2 (.inr (.inr rfl)))

end Cert.KernelIdeal.Hand

end
-- ==== Proof.Spec.lean ====
/-
  The mathematics both programs compute, over the extended reals, from the embedding matrix
  E : [8192, 512] and the similarity matrix S : [8192, 8192].

  Row i of E has the sum of squares  rowSq i = ∑_d E(i,d)²  and the norm  rowNorm i = √(rowSq i);
  the Gram entry is  gram i j = ∑_d E(i,d)·E(j,d).

  The reference's loss is  −∑_{i,j} (gram i j / (rowNorm i · rowNorm j)) · S(i,j).
  The kernel's loss is  −∑_b ∑_{r<128} ∑_j (gram i j · ((1/rowNorm i)·(1/rowNorm j))) · S(i,j)  with i = 128·b + r:
  the same terms with the quotient replaced by a product of reciprocals, summed block of rows by block of rows.

  The two agree when every entry of E is a real number and no row of E is zero: then every norm is a
  positive real, g/(a·b) = g·((1/a)·(1/b)) in ℝ, and a finite sum may be regrouped freely. At a zero row the
  two differ (0/0 against 0·∞), which is why the statement carries that hypothesis.
-/
import Idealize.ShloMosaic.PureOps.Ideal
import Idealize.ShloMosaic.Lib.ValueIdx

noncomputable section

namespace Cert.Spec

open Idealize.ShloMosaic Idealize.ShloMosaic.ValueIdx

/-- The embedding matrix's shape and the similarity matrix's. -/
abbrev SE : Shape := ⟨2, ![8192, 512]⟩
abbrev SS : Shape := ⟨2, ![8192, 8192]⟩

/-- The sum of squares of row `i`. -/
def rowSq (E : SE.Idx → EReal) (i : Fin 8192) : EReal := ∑ d : Fin 512, E (ix2 i d) * E (ix2 i d)

/-- The Euclidean norm of row `i`. -/
def rowNorm (E : SE.Idx → EReal) (i : Fin 8192) : EReal := Ideal.sqrt (rowSq E i)

/-- The inner product of rows `i` and `j`. -/
def gram (E : SE.Idx → EReal) (i j : Fin 8192) : EReal := ∑ d : Fin 512, E (ix2 i d) * E (ix2 j d)

/-- One term of the reference's sum: the Gram entry over the product of the two norms, times the similarity. -/
def refTerm (E : SE.Idx → EReal) (S : SS.Idx → EReal) (i j : Fin 8192) : EReal :=
  Ideal.div (gram E i j) (rowNorm E i * rowNorm E j) * S (ix2 i j)

/-- One term of the kernel's sum: the Gram entry times the product of the two reciprocal norms, times the similarity. -/
def kerTerm (E : SE.Idx → EReal) (S : SS.Idx → EReal) (i j : Fin 8192) : EReal :=
  gram E i j * (Ideal.div 1 (rowNorm E i) * Ideal.div 1 (rowNorm E j)) * S (ix2 i j)

/-- The reference's result. -/
def refLoss (E : SE.Idx → EReal) (S : SS.Idx → EReal) : EReal := -(∑ i : Fin 8192, ∑ j : Fin 8192, refTerm E S i j)

/-- Row `r` of the `b`-th block of 128 rows. -/
def rowOf (b : Fin 64) (r : Fin 128) : Fin 8192 := ⟨128 * b.val + r.val, by omega⟩

/-- What the kernel leaves for block `b`: the sum of its terms over the block's 128 rows and all columns. -/
def blockSum (E : SE.Idx → EReal) (S : SS.Idx → EReal) (b : Fin 64) : EReal :=
  ∑ r : Fin 128, ∑ j : Fin 8192, kerTerm E S (rowOf b r) j

/-- The kernel's result: minus the sum of the 64 block sums. -/
def kerLoss (E : SE.Idx → EReal) (S : SS.Idx → EReal) : EReal := -(∑ b : Fin 64, blockSum E S b)

/-- The real-number coercion commutes with a finite sum. -/
theorem coe_sum_real {ι : Type*} (s : Finset ι) (g : ι → ℝ) :
    ((∑ d ∈ s, g d : ℝ) : EReal) = ∑ d ∈ s, (g d : EReal) := by
  classical
  induction s using Finset.induction_on with
  | empty => simp
  | insert a s ha ih => rw [Finset.sum_insert ha, Finset.sum_insert ha, EReal.coe_add, ih]

/-- Regrouping: a sum over the 8192 rows is the sum over the 64 blocks of the sums over each block's 128 rows,
    by the bijection (b, r) ↦ 128·b + r. -/
theorem sum_rowOf {M : Type*} [AddCommMonoid M] (f : Fin 8192 → M) :
    ∑ b : Fin 64, ∑ r : Fin 128, f (rowOf b r) = ∑ i : Fin 8192, f i := by
  rw [← Fintype.sum_prod_type' (fun b r => f (rowOf b r))]
  refine Fintype.sum_equiv (finProdFinEquiv (m := 64) (n := 128)) _ _ (fun x => ?_)
  congr 1
  apply Fin.ext
  simp only [rowOf, finProdFinEquiv, Equiv.coe_fn_mk]
  omega

/-- Termwise: with every entry real and both rows nonzero, the norms are positive reals, and
    g·((1/a)·(1/b)) = g/(a·b) in ℝ. -/
theorem kerTerm_eq_refTerm (E : SE.Idx → EReal) (S : SS.Idx → EReal)
    (hfin : ∀ k, ∃ r : ℝ, E k = (r : EReal)) (hpos : ∀ i, 0 < rowSq E i) (i j : Fin 8192) :
    kerTerm E S i j = refTerm E S i j := by
  choose e he using hfin
  have hsq : ∀ i, rowSq E i = ((∑ d : Fin 512, e (ix2 i d) * e (ix2 i d) : ℝ) : EReal) := by
    intro i
    unfold rowSq
    rw [coe_sum_real]
    refine Finset.sum_congr rfl (fun d _ => ?_)
    rw [he, EReal.coe_mul]
  have hgram : gram E i j = ((∑ d : Fin 512, e (ix2 i d) * e (ix2 j d) : ℝ) : EReal) := by
    unfold gram
    rw [coe_sum_real]
    refine Finset.sum_congr rfl (fun d _ => ?_)
    rw [he, he, EReal.coe_mul]
  have hnorm : ∀ i, ∃ a : ℝ, 0 < a ∧ rowNorm E i = (a : EReal) := by
    intro i
    have h := hpos i
    rw [hsq i] at h
    have h' : 0 < ∑ d : Fin 512, e (ix2 i d) * e (ix2 i d) := by exact_mod_cast h
    refine ⟨Real.sqrt _, Real.sqrt_pos.mpr h', ?_⟩
    unfold rowNorm
    rw [hsq i, Ideal.sqrt_coe, if_neg (not_lt.mpr h'.le)]
  obtain ⟨a, ha, hai⟩ := hnorm i
  obtain ⟨b, hb, hbj⟩ := hnorm j
  unfold kerTerm refTerm
  rw [hai, hbj, hgram]
  congr 1
  rw [← EReal.coe_mul, Ideal.div_coe (mul_pos ha hb).ne', Ideal.div_coe ha.ne', Ideal.div_coe hb.ne',
    one_mul, one_mul, ← EReal.coe_mul, ← EReal.coe_mul, ← EReal.coe_mul]
  congr 1
  field_simp

/-- With every entry of `E` real and no row of `E` zero, the two losses are equal. -/
theorem kerLoss_eq_refLoss (E : SE.Idx → EReal) (S : SS.Idx → EReal)
    (hfin : ∀ k, ∃ r : ℝ, E k = (r : EReal)) (hpos : ∀ i, 0 < rowSq E i) :
    kerLoss E S = refLoss E S := by
  unfold kerLoss refLoss
  simp only [blockSum]
  rw [sum_rowOf (fun i => ∑ j : Fin 8192, kerTerm E S i j)]
  congr 1
  exact Finset.sum_congr rfl (fun i _ => Finset.sum_congr rfl (fun j _ =>
    kerTerm_eq_refTerm E S hfin hpos i j))

end Cert.Spec

end
-- ==== Proof.KIBlockPay.lean ====
/-
  The body's arithmetic over the extended reals, from five blocks given as plain arrays: the stored value is, on
  every lane, the double sum over the block's 128 rows and the 8192 columns of
  (inner product of row r and row j) · (reciprocal norm r · reciprocal norm j) · similarity (r, j).
-/
import proofs.«173337_j70222715290004_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-! ## The matrix product at an index -/

theorem lhs_mm_0 (i : S128x8192.Idx) (q : dot_S128x512_S8192x512_S128x8192_1_1_0_0_n_n.contr.Idx) :
    (dot_S128x512_S8192x512_S128x8192_1_1_0_0_n_n.lhsIdx i q 0).val = (i 0).val := by
  unfold DotDims.lhsIdx
  rw [dif_neg (show ¬(0 : Fin S128x512.rank) ∈ dot_S128x512_S8192x512_S128x8192_1_1_0_0_n_n.lhsBatch by decide), dif_pos (show (0 : Fin S128x512.rank) ∈ dot_S128x512_S8192x512_S128x8192_1_1_0_0_n_n.lhsNonContracting by decide)]
  rfl
theorem lhs_mm_1 (i : S128x8192.Idx) (q : dot_S128x512_S8192x512_S128x8192_1_1_0_0_n_n.contr.Idx) :
    (dot_S128x512_S8192x512_S128x8192_1_1_0_0_n_n.lhsIdx i q 1).val = (q ⟨0, by decide⟩).val :=
  dot_S128x512_S8192x512_S128x8192_1_1_0_0_n_n.lhsIdx_val_of_single rfl i q
theorem rhs_mm_0 (i : S128x8192.Idx) (q : dot_S128x512_S8192x512_S128x8192_1_1_0_0_n_n.contr.Idx) :
    (dot_S128x512_S8192x512_S128x8192_1_1_0_0_n_n.rhsIdx i q 0).val = (i 1).val := by
  unfold DotDims.rhsIdx
  rw [dif_neg (show ¬(0 : Fin S8192x512.rank) ∈ dot_S128x512_S8192x512_S128x8192_1_1_0_0_n_n.rhsBatch by decide), dif_pos (show (0 : Fin S8192x512.rank) ∈ dot_S128x512_S8192x512_S128x8192_1_1_0_0_n_n.rhsNonContracting by decide)]
  rfl
theorem rhs_mm_1 (i : S128x8192.Idx) (q : dot_S128x512_S8192x512_S128x8192_1_1_0_0_n_n.contr.Idx) :
    (dot_S128x512_S8192x512_S128x8192_1_1_0_0_n_n.rhsIdx i q 1).val = (q ⟨0, by decide⟩).val :=
  dot_S128x512_S8192x512_S128x8192_1_1_0_0_n_n.rhsIdx_val_of_single rfl i q

/-- The product of the block of rows with the whole matrix transposed, into the zero accumulator, at (r, j): the inner
    product of row r of the block and row j of the matrix. -/
theorem mm_apply (x0 : FVec Ideal S128x512 .f32) (x1 : FVec Ideal S8192x512 .f32) (r : Fin 128) (j : Fin 8192) :
    matmul dot_S128x512_S8192x512_S128x8192_1_1_0_0_n_n none x0 x1 (constant (F := Ideal) S128x8192 .f32 0x00000000#32) (ix2 r j)
      = ∑ d : Fin 512, x0 (ix2 r d) * x1 (ix2 j d) := by
  refine (Ideal.matmul_constant_zero_apply dot_S128x512_S8192x512_S128x8192_1_1_0_0_n_n none x0 x1 (ix2 r j)).trans ?_
  rw [← Equiv.sum_comp (ValueIdx.contrEquiv1 dot_S128x512_S8192x512_S128x8192_1_1_0_0_n_n 512 rfl rfl).symm]
  refine Finset.sum_congr rfl fun k _ => ?_
  have hk := ValueIdx.contrEquiv1_symm_val dot_S128x512_S8192x512_S128x8192_1_1_0_0_n_n 512 rfl rfl k
  have el : dot_S128x512_S8192x512_S128x8192_1_1_0_0_n_n.lhsIdx (ix2 r j) ((ValueIdx.contrEquiv1 dot_S128x512_S8192x512_S128x8192_1_1_0_0_n_n 512 rfl rfl).symm k) = ix2 r k := funext fun a => Fin.ext (by
    match a with
    | ⟨0, _⟩ => exact lhs_mm_0 _ _
    | ⟨1, _⟩ => exact (lhs_mm_1 _ _).trans hk)
  have er : dot_S128x512_S8192x512_S128x8192_1_1_0_0_n_n.rhsIdx (ix2 r j) ((ValueIdx.contrEquiv1 dot_S128x512_S8192x512_S128x8192_1_1_0_0_n_n 512 rfl rfl).symm k) = ix2 j k := funext fun a => Fin.ext (by
    match a with
    | ⟨0, _⟩ => exact rhs_mm_0 _ _
    | ⟨1, _⟩ => exact (rhs_mm_1 _ _).trans hk)
  rw [el, er]

/-! ## The two broadcasts at an index -/

/-- A column [a, 1] broadcast to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum over a [1, a, b] index set as a double sum -/

/-- A [1, a, b] index set is the product of its last two coordinate ranges. -/
def idxEquiv3u {a b : Nat} : (⟨3, ![1, a, b]⟩ : Shape).Idx ≃ Fin a × Fin b where
  toFun i := (i 1, i 2)
  invFun p := ix3 (0 : Fin 1) p.1 p.2
  left_inv i := by
    funext d
    match d with
    | ⟨0, _⟩ => exact Fin.ext (by have h0 : (i 0).val < 1 := (i 0).isLt; show 0 = (i 0).val; omega)
    | ⟨1, _⟩ => rfl
    | ⟨2, _⟩ => rfl
  right_inv _ := rfl

theorem sum_idx3u {M : Type*} [AddCommMonoid M] {a b : Nat} (f : (⟨3, ![1, a, b]⟩ : Shape).Idx → M) :
    ∑ i, f i = ∑ r : Fin a, ∑ j : Fin b, f (ix3 (0 : Fin 1) r j) := by
  rw [← Equiv.sum_comp (idxEquiv3u (a := a) (b := b)).symm f, Fintype.sum_prod_type]
  rfl

/-! ## The payload, operation by operation -/

/-- The stored vector is, on every lane, the one entry of the lane sum. -/
theorem outer_apply {α : Type} (v14 : S1.Idx → α) (l : S1x1x128.Idx) :
    broadcast S1x1x128 (extractAt ![0, 0, 0] (shapeCast S1x1x1 v14 shapeCasts_S1_S1x1x1) inpos_S1x1x1_p0_0_0) l = v14 (ix1 (0 : Fin 1)) := by
  show v14 _ = v14 _
  refine congrArg v14 (funext fun a => ?_)
  match a with
  | ⟨0, _⟩ => exact Subsingleton.elim (α := Fin 1) _ _

/-- The lane sum over both axes of the block is the double sum over its rows and columns. -/
theorem lane_sum (v12 : FVec Ideal S128x8192 .f32) :
    multiReduction (F := Ideal) .add [1, 2] S1 (shapeCast S1x128x8192 v12 shapeCasts_S128x8192_S1x128x8192) 0x00000000#32 reduces_S1x128x8192_S1 (.inl rfl) rfl (ix1 (0 : Fin 1))
      = ∑ r : Fin 128, ∑ j : Fin 8192, v12 (ix2 r j) := by
  refine (Ideal.multiReduction_add_total (shapeCast S1x128x8192 v12 shapeCasts_S128x8192_S1x128x8192) 0x00000000#32 reduces_S1x128x8192_S1 (fun b => by match b with | ⟨0, _⟩ => rfl) (.inl rfl) rfl (ix1 (0 : Fin 1))).trans ?_
  refine (sum_idx3u _).trans ?_
  refine Finset.sum_congr rfl fun r _ => Finset.sum_congr rfl fun j _ => ?_
  exact shapeCast_ab_1ab_apply v12 shapeCasts_S128x8192_S1x128x8192 (0 : Fin 1) r j

/-- One entry of the product the lanes sum: (inner product of rows r and j) · (x3 r · x4 j) · x2 (r, j). -/
theorem prod_apply (x0 : FVec Ideal S128x512 .f32) (x1 : FVec Ideal S8192x512 .f32) (x3 : FVec Ideal S128x1 .f32)
    (x4 : FVec Ideal S1x8192 .f32) (x2 : FVec Ideal S128x8192 .f32) (r : Fin 128) (j : Fin 8192) :
    mulf (mulf (matmul dot_S128x512_S8192x512_S128x8192_1_1_0_0_n_n none x0 x1 (constant (F := Ideal) S128x8192 .f32 0x00000000#32))
        (mulf (broadcastTo S128x8192 (shapeCast S128x1 x3 shapeCasts_S128x1_S128x1) broadcasts_S128x1_S128x8192)
              (broadcastTo S128x8192 (shapeCast S1x8192 x4 shapeCasts_S1x8192_S1x8192) broadcasts_S1x8192_S128x8192))) x2 (ix2 r j)
      = (∑ d : Fin 512, x0 (ix2 r d) * x1 (ix2 j d)) * (x3 (ix2 r (0 : Fin 1)) * x4 (ix2 (0 : Fin 1) j)) * x2 (ix2 r j) := by
  rw [mulf_apply, mulf_apply, mulf_apply, mm_apply, shapeCast_self, shapeCast_self, broadcastTo_a1_ab_apply, broadcastTo_1b_ab_apply]

/-- The stored value: on every lane, the double sum over the block's rows r and the columns j of
    (inner product of rows r and j) · (x3 r · x4 j) · x2 (r, j). -/
theorem pay_value (x0 : FVec Ideal S128x512 .f32) (x1 : FVec Ideal S8192x512 .f32) (x3 : FVec Ideal S128x1 .f32)
    (x4 : FVec Ideal S1x8192 .f32) (x2 : FVec Ideal S128x8192 .f32) :
    k0_pay1 (F := Ideal) x0 x1 x3 x4 x2
      = fun _ => ∑ r : Fin 128, ∑ j : Fin 8192,
          (∑ d : Fin 512, x0 (ix2 r d) * x1 (ix2 j d)) * (x3 (ix2 r (0 : Fin 1)) * x4 (ix2 (0 : Fin 1) j)) * x2 (ix2 r j) := by
  funext l
  unfold k0_pay1
  refine (outer_apply _ l).trans ?_
  refine (lane_sum _).trans ?_
  exact Finset.sum_congr rfl fun r _ => Finset.sum_congr rfl fun j _ => prod_apply x0 x1 x3 x4 x2 r j

end Cert.KernelIdeal.HandValue

end
-- ==== Proof.KIBlockHost.lean ====
/-
  What the region finds in its arrays: the two arguments as launched, and in the two reshaped arrays the reciprocal
  norms 1 / √(∑_d E(i,d)²) of the embedding's rows, as a column and as a row.
-/
import proofs.«173337_j70222715290004_1_alg».proof.Proof.KIBody
import proofs.«173337_j70222715290004_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx Idealize.ShloMosaic.StableHlo

/-- The f32 word of the constant the reciprocals divide is the number one. -/
theorem ofBits_one_f32 : Ideal.ofBits .f32 0x3F800000#32 = 1 := by
  simp [Ideal.ofBits, Ideal.ieee, -EReal.coe_mul]; norm_num

/-- The reciprocal norms of the rows of `E`, as the host operations compute them: one over the square root of the row's
    sum of squares. -/
def recip (E : FVec Ideal S8192x512 .f32) : FVec Ideal S8192 .f32 :=
  Host.divf (F := Ideal) (broadcastInDim S8192 ![] bcast_S_S8192 (constant (F := Ideal) S_ .f32 0x3F800000#32))
    (Host.sqrt (F := Ideal) (Host.reduceAdd (F := Ideal) (mulf E E) (constant (F := Ideal) S_ .f32 0x00000000#32) reducesTo_S8192x512_S8192_d1 h_S_))

/-- Entry `i` of the reciprocal norms is one over the norm of row `i`. -/
theorem recip_apply (E : FVec Ideal S8192x512 .f32) (i : Fin 8192) :
    recip E (ix1 i) = Ideal.div 1 (Cert.Spec.rowNorm E i) := by
  unfold recip Cert.Spec.rowNorm Cert.Spec.rowSq
  show Ideal.div (broadcastInDim S8192 ![] bcast_S_S8192 (constant (F := Ideal) S_ .f32 0x3F800000#32) (ix1 i))
      (Ideal.sqrt (Host.reduceAdd (F := Ideal) (mulf E E) (constant (F := Ideal) S_ .f32 0x00000000#32) reducesTo_S8192x512_S8192_d1 h_S_ (ix1 i))) = _
  have h1 : broadcastInDim S8192 ![] bcast_S_S8192 (constant (F := Ideal) S_ .f32 0x3F800000#32) (ix1 i) = (1 : EReal) := by
    show Ideal.ofBits .f32 0x3F800000#32 = 1
    exact ofBits_one_f32
  have h2 : Host.reduceAdd (F := Ideal) (mulf E E) (constant (F := Ideal) S_ .f32 0x00000000#32) reducesTo_S8192x512_S8192_d1 h_S_ (ix1 i)
      = ∑ d : Fin 512, E (ix2 i d) * E (ix2 i d) := by
    generalize hy : mulf E E = y0
    simp only [Host.reduceAdd, Ideal.hostReduceAdd_def]
    rw [Ideal.hostReduceAdd_single reducesTo_S8192x512_S8192_d1 (by decide)]
    show Ideal.ofBits .f32 0x00000000#32 + _ = _
    rw [Ideal.ofBits_zero_f32, zero_add]
    refine Finset.sum_congr rfl fun k _ => ?_
    subst hy
    show E _ * E _ = _
    have e : (Shape.Reduces.lift (by decide : S8192x512.Reduces [1] S8192) (ix1 i) k) = ix2 i k :=
      funext fun a => Fin.ext (by match a with | ⟨0, _⟩ => rfl | ⟨1, _⟩ => rfl)
    rw [e]
    rfl
  rw [h1, h2]

variable (m : (ℓ : Loc nD τ sig) → Buf (Elt Ideal) ℓ)

/-- No host operation before the region writes the embedding: the region finds it as launched. -/
theorem V_arg0 (c : Dev nD) : V m c main_arg0 = m ((c.tc : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor the similarity matrix. -/
theorem V_arg1 (c : Dev nD) : V m c main_arg1 = m ((c.tc : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The column array holds the reciprocal norms, reshaped [8192] → [8192, 1]. -/
theorem V_v5 (c : Dev nD) :
    (V m c main_v5 : S8192x1.Idx → EReal) = shapeCast S8192x1 (recip (m ((c.tc : Thread nD τ).loc main_arg0))) shapeCasts_S8192_S8192x1 := by
  dsimp only [V, V0]
  simp only [hostOps0, List.flatten_cons, List.flatten_nil, List.append_nil]
  after_results
  rfl

/-- The row array holds the reciprocal norms, reshaped [8192] → [1, 8192]. -/
theorem V_v6 (c : Dev nD) :
    (V m c main_v6 : S1x8192.Idx → EReal) = shapeCast S1x8192 (recip (m ((c.tc : Thread nD τ).loc main_arg0))) shapeCasts_S8192_S1x8192 := by
  dsimp only [V, V0]
  simp only [hostOps0, List.flatten_cons, List.flatten_nil, List.append_nil]
  after_results
  rfl

/-- Entry (i, 0) of the column array is one over the norm of row `i`. -/
theorem V_v5_apply (c : Dev nD) (i : Fin 8192) :
    (V m c main_v5 : S8192x1.Idx → EReal) (ix2 i (0 : Fin 1)) = Ideal.div 1 (Cert.Spec.rowNorm (m ((c.tc : Thread nD τ).loc main_arg0)) i) := by
  rw [V_v5]
  refine (shapeCast_apply _ shapeCasts_S8192_S8192x1 (ix2 i (0 : Fin 1)) (ix1 i) (by
    rw [Shape.rowMajor_val_two, Shape.rowMajor_val_one]
    show i.val = i.val * 1 + 0
    omega)).trans ?_
  exact recip_apply _ i

/-- Entry (0, j) of the row array is one over the norm of row `j`. -/
theorem V_v6_apply (c : Dev nD) (j : Fin 8192) :
    (V m c main_v6 : S1x8192.Idx → EReal) (ix2 (0 : Fin 1) j) = Ideal.div 1 (Cert.Spec.rowNorm (m ((c.tc : Thread nD τ).loc main_arg0)) j) := by
  rw [V_v6]
  refine (shapeCast_a_1a_apply _ shapeCasts_S8192_S1x8192 (0 : Fin 1) j).trans ?_
  exact recip_apply _ j

end Cert.KernelIdeal.HandValue

end
-- ==== Proof.KIBlockRead.lean ====
/-
  Each input window's block at a grid point, entry by entry, as an entry of the array the window reads: the three row
  windows read rows 128·t … 128·t + 127 of their arrays, the two whole-array windows read their arrays as they are.
-/
import proofs.«173337_j70222715290004_1_alg».proof.Proof.KIBody
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

/-- The windows' block indices at point `t`: the row windows are at block `t` of the rows, every other index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

variable (m : (ℓ : Loc nD τ sig) → Buf (Elt Ideal) ℓ)

/-- Window 0's block at `t` is rows 128·t … of the embedding. -/
theorem iblk0_apply (c : Dev nD) (t : Fin cfg0.N) (x : S128x512.Idx) (k : S8192x512.Idx)
    (hk0 : (k 0).val = 128 * t.val + (x 0).val) (hk1 : (k 1).val = (x 1).val) :
    (iblk m c 0 t : Vec Ideal S128x512 .f32) x = (V m c main_arg0 : S8192x512.Idx → EReal) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 128 + 1 * (x 0).val = (k 0).val; rw [e0, hk0]; omega
  | ⟨1, _⟩ => show win0_0.index t 1 * 512 + 1 * (x 1).val = (k 1).val; rw [e1, hk1]; omega

/-- Window 1's block is the whole embedding. -/
theorem iblk1_apply (c : Dev nD) (t : Fin cfg0.N) (x : S8192x512.Idx) :
    (iblk m c 1 t : Vec Ideal S8192x512 .f32) x = (V m c main_arg0 : S8192x512.Idx → EReal) x := by
  obtain ⟨-, -, e0, e1, -⟩ := idx_facts t
  unfold iblk
  rw [View.read_apply]
  show V m c main_arg0 _ = V m c main_arg0 _
  congr 1
  funext a
  apply Fin.ext
  match a with
  | ⟨0, _⟩ => show win0_1.index t 0 * 8192 + 1 * (x 0).val = (x 0).val; rw [e0]; omega
  | ⟨1, _⟩ => show win0_1.index t 1 * 512 + 1 * (x 1).val = (x 1).val; rw [e1]; omega

/-- Window 2's block at `t` is rows 128·t … of the similarity matrix. -/
theorem iblk2_apply (c : Dev nD) (t : Fin cfg0.N) (x : S128x8192.Idx) (k : S8192x8192.Idx)
    (hk0 : (k 0).val = 128 * t.val + (x 0).val) (hk1 : (k 1).val = (x 1).val) :
    (iblk m c 2 t : Vec Ideal S128x8192 .f32) x = (V m c main_arg1 : S8192x8192.Idx → EReal) k := by
  obtain ⟨-, -, -, -, e0, e1, -⟩ := idx_facts t
  unfold iblk
  rw [View.read_apply]
  show V m c main_arg1 _ = V m c main_arg1 _
  congr 1
  funext a
  apply Fin.ext
  match a with
  | ⟨0, _⟩ => show win0_2.index t 0 * 128 + 1 * (x 0).val = (k 0).val; rw [e0, hk0]; omega
  | ⟨1, _⟩ => show win0_2.index t 1 * 8192 + 1 * (x 1).val = (k 1).val; rw [e1, hk1]; omega

/-- Window 3's block at `t` is rows 128·t … of the column of reciprocal norms. -/
theorem iblk3_apply (c : Dev nD) (t : Fin cfg0.N) (x : S128x1.Idx) (k : S8192x1.Idx)
    (hk0 : (k 0).val = 128 * t.val + (x 0).val) (hk1 : (k 1).val = (x 1).val) :
    (iblk m c 3 t : Vec Ideal S128x1 .f32) x = (V m c main_v5 : S8192x1.Idx → EReal) k := by
  obtain ⟨-, -, -, -, -, -, e0, e1, -⟩ := idx_facts t
  unfold iblk
  rw [View.read_apply]
  show V m c main_v5 _ = V m c main_v5 _
  congr 1
  funext a
  apply Fin.ext
  match a with
  | ⟨0, _⟩ => show win0_3.index t 0 * 128 + 1 * (x 0).val = (k 0).val; rw [e0, hk0]; omega
  | ⟨1, _⟩ => show win0_3.index t 1 * 1 + 1 * (x 1).val = (k 1).val; rw [e1, hk1]; omega

/-- Window 4's block is the whole row of reciprocal norms. -/
theorem iblk4_apply (c : Dev nD) (t : Fin cfg0.N) (x : S1x8192.Idx) :
    (iblk m c 4 t : Vec Ideal S1x8192 .f32) x = (V m c main_v6 : S1x8192.Idx → EReal) x := by
  obtain ⟨-, -, -, -, -, -, -, -, e0, e1⟩ := idx_facts t
  unfold iblk
  rw [View.read_apply]
  show V m c main_v6 _ = V m c main_v6 _
  congr 1
  funext a
  apply Fin.ext
  match a with
  | ⟨0, _⟩ => show win0_4.index t 0 * 1 + 1 * (x 0).val = (x 0).val; rw [e0]; omega
  | ⟨1, _⟩ => show win0_4.index t 1 * 8192 + 1 * (x 1).val = (x 1).val; rw [e1]; omega

end Cert.KernelIdeal.HandValue

end
-- ==== Proof.KIBlock.lean ====
/-
  What the kernel's body stores at one grid point, over the extended reals: the block sum of the point's 128 rows,
  on every lane of the output slot.
-/
import proofs.«173337_j70222715290004_1_alg».proof.Proof.KIBody
import proofs.«173337_j70222715290004_1_alg».proof.Proof.Spec
import proofs.«173337_j70222715290004_1_alg».proof.Proof.KIBlockPay
import proofs.«173337_j70222715290004_1_alg».proof.Proof.KIBlockHost
import proofs.«173337_j70222715290004_1_alg».proof.Proof.KIBlockRead
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- The five input blocks at point `t`, each at its literal shape. -/
abbrev blkE (c : Dev nD) (t : Fin cfg0.N) : FVec Ideal S128x512 .f32 := iblk m c 0 t
abbrev allE (c : Dev nD) (t : Fin cfg0.N) : FVec Ideal S8192x512 .f32 := iblk m c 1 t
abbrev blkS (c : Dev nD) (t : Fin cfg0.N) : FVec Ideal S128x8192 .f32 := iblk m c 2 t
abbrev blkR (c : Dev nD) (t : Fin cfg0.N) : FVec Ideal S128x1 .f32 := iblk m c 3 t
abbrev allR (c : Dev nD) (t : Fin cfg0.N) : FVec Ideal S1x8192 .f32 := iblk m c 4 t

/-- One term of the payload's double sum, with the five blocks read off their arrays, is the specification's term at
    row 128·t + r and column j. -/
theorem term_eq (c : Dev nD) (t : Fin cfg0.N) (r : Fin 128) (j : Fin 8192) :
    (∑ d : Fin 512, blkE m c t (ix2 r d) * allE m c t (ix2 j d))
        * (blkR m c t (ix2 r (0 : Fin 1)) * allR m c t (ix2 (0 : Fin 1) j))
        * blkS m c t (ix2 r j)
      = Cert.Spec.kerTerm (m ((c.tc : Thread nD τ).loc main_arg0)) (m ((c.tc : Thread nD τ).loc main_arg1))
          (Cert.Spec.rowOf (Fin.cast N_0 t) r) j := by
  have h0 : ∀ d : Fin 512, blkE m c t (ix2 r d)
      = (m ((c.tc : Thread nD τ).loc main_arg0) : S8192x512.Idx → EReal) (ix2 (Cert.Spec.rowOf (Fin.cast N_0 t) r) d) := fun d =>
    (iblk0_apply m c t (ix2 r d) (ix2 (Cert.Spec.rowOf (Fin.cast N_0 t) r) d) rfl rfl).trans (congrFun (V_arg0 m c) _)
  have h1 : ∀ d : Fin 512, allE m c t (ix2 j d)
      = (m ((c.tc : Thread nD τ).loc main_arg0) : S8192x512.Idx → EReal) (ix2 j d) := fun d =>
    (iblk1_apply m c t (ix2 j d)).trans (congrFun (V_arg0 m c) _)
  have h2 : blkS m c t (ix2 r j)
      = (m ((c.tc : Thread nD τ).loc main_arg1) : S8192x8192.Idx → EReal) (ix2 (Cert.Spec.rowOf (Fin.cast N_0 t) r) j) :=
    (iblk2_apply m c t (ix2 r j) (ix2 (Cert.Spec.rowOf (Fin.cast N_0 t) r) j) rfl rfl).trans (congrFun (V_arg1 m c) _)
  have h3 : blkR m c t (ix2 r (0 : Fin 1))
      = Ideal.div 1 (Cert.Spec.rowNorm (m ((c.tc : Thread nD τ).loc main_arg0)) (Cert.Spec.rowOf (Fin.cast N_0 t) r)) :=
    (iblk3_apply m c t (ix2 r (0 : Fin 1)) (ix2 (Cert.Spec.rowOf (Fin.cast N_0 t) r) (0 : Fin 1)) rfl rfl).trans (V_v5_apply m c _)
  have h4 : allR m c t (ix2 (0 : Fin 1) j)
      = Ideal.div 1 (Cert.Spec.rowNorm (m ((c.tc : Thread nD τ).loc main_arg0)) j) :=
    (iblk4_apply m c t (ix2 (0 : Fin 1) j)).trans (V_v6_apply m c j)
  unfold Cert.Spec.kerTerm Cert.Spec.gram
  exact congrArg₂ (· * ·) (congrArg₂ (· * ·) (Finset.sum_congr rfl fun d _ => congrArg₂ (· * ·) (h0 d) (h1 d)) (congrArg₂ (· * ·) h3 h4)) h2

/-- At point `t` the body's stored value, computed from the five input blocks, is the block sum of block `t` of the
    two argument arrays, on every lane. -/
theorem block_value (c : Dev nD) (t : Fin cfg0.N) :
    k0_pay1 (F := Ideal) (iblk m c 0 t) (iblk m c 1 t) (iblk m c 3 t) (iblk m c 4 t) (iblk m c 2 t)
      = fun _ => Cert.Spec.blockSum (m ((c.tc : Thread nD τ).loc main_arg0)) (m ((c.tc : Thread nD τ).loc main_arg1)) (Fin.cast N_0 t) := by
  refine (pay_value (blkE m c t) (allE m c t) (blkR m c t) (allR m c t) (blkS m c t)).trans ?_
  funext l
  unfold Cert.Spec.blockSum
  exact Finset.sum_congr rfl fun r _ => Finset.sum_congr rfl fun j _ => term_eq m c t r j

end Cert.KernelIdeal.HandValue

end
-- ==== Proof.KIValue.lean ====
/-
  The value the idealized kernel's program ends with, over the extended reals: minus the sum over the 64 blocks
  of rows of the block sums of (Gram entry · product of reciprocal norms · similarity).
-/
import proofs.«173337_j70222715290004_1_alg».proof.Proof.KIBody
import proofs.«173337_j70222715290004_1_alg».proof.Proof.KIBlock
import proofs.«173337_j70222715290004_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ)

/-! ## The output array after the 64 write-backs -/

/-- The output array as one function of the two argument arrays: at (b, 0, lane) the block sum of block `b`,
    the same on every lane. -/
def outArr (E : Cert.Spec.SE.Idx → EReal) (S : Cert.Spec.SS.Idx → EReal) : S64x1x128.Idx → EReal :=
  fun y => Cert.Spec.blockSum E S ⟨(y 0).val, (y 0).isLt⟩

/-- The output window's index map, decided over the grid: point `t` writes block (t, 0, 0). -/
theorem out_index : ∀ t : Fin cfg0.N, win0_5.index t (0 : Fin 3) = t.val ∧ win0_5.index t (1 : Fin 3) = 0 ∧ win0_5.index t (2 : Fin 3) = 0 :=
  (by decide +kernel : ∀ t : Fin grid0.N, _)

/-- The output block is never clipped: its extents are 1, 1, 128 at every point. -/
theorem out_xsize : ∀ t : Fin cfg0.N, win0_5.xsize (grid0.coords t) (0 : Fin 3) = 1 ∧ win0_5.xsize (grid0.coords t) (1 : Fin 3) = 1 ∧ win0_5.xsize (grid0.coords t) (2 : Fin 3) = 128 :=
  (by decide +kernel : ∀ t : Fin grid0.N, _)

/-- What point `t` writes back is block `t` of `outArr` of the two argument arrays. -/
theorem flushed_out (c : Dev nD) (t : Fin cfg0.N) :
    (dats m 0 c).flushed 5 t
      = ((cfg0.win 5).blk t).view.read (Elt Ideal) (outArr (m ((c.tc : Thread nD τ).loc main_arg0)) (m ((c.tc : Thread nD τ).loc main_arg1))) := by
  show (cfg0.win 5).cut (grid0.coords t) ((dats m 0 c).after 5 t) = _
  rw [after0_5, block_value]
  funext j
  rw [View.read_apply]
  show Cert.Spec.blockSum _ _ (Fin.cast N_0 t) = Cert.Spec.blockSum _ _ _
  congr 1
  apply Fin.ext
  obtain ⟨e0, -, -⟩ := out_index t
  obtain ⟨x0, -, -⟩ := out_xsize t
  have hj : (j 0).val < win0_5.xsize (grid0.coords t) (0 : Fin 3) := (j 0).isLt
  show t.val = win0_5.index t (0 : Fin 3) * 1 + 1 * (j 0).val
  omega

/-- An index of the output array lies in point `t`'s block iff each coordinate lies in the block's range on its axis. -/
theorem mem_out_blk (t : Fin cfg0.N) (i : S64x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v7).slice (win0_5.rect t)).set ↔ _
  rw [View.set_slice_whole, Rect.mem_set_unit]
  exact Iff.rfl

/-- Every index (b, 0, lane) of the output array lies in the block point `b` writes back. -/
theorem out_cover (i : S64x1x128.Idx) :
    ∃ t : Fin cfg0.N, (cfg0.win 5).flush t = true ∧ i ∈ ((cfg0.win 5).blk t).view.set := by
  have h0 : (i 0).val < 64 := (i 0).isLt
  have h1 : (i 1).val < 1 := (i 1).isLt
  have h2 : (i 2).val < 128 := (i 2).isLt
  refine ⟨Fin.cast N_0.symm ⟨(i 0).val, h0⟩, flush0_5 _, ?_⟩
  rw [mem_out_blk]
  obtain ⟨e0, e1, e2⟩ := out_index (Fin.cast N_0.symm ⟨(i 0).val, h0⟩)
  have e0' : win0_5.index (Fin.cast N_0.symm ⟨(i 0).val, h0⟩) (0 : Fin 3) = (i 0).val := e0
  intro a
  match a with
  | ⟨0, _⟩ =>
    show win0_5.index _ (0 : Fin 3) * 1 ≤ (i 0).val ∧ (i 0).val < win0_5.index _ (0 : Fin 3) * 1 + 1
    rw [e0']; omega
  | ⟨1, _⟩ =>
    show win0_5.index _ (1 : Fin 3) * 1 ≤ (i 1).val ∧ (i 1).val < win0_5.index _ (1 : Fin 3) * 1 + 1
    rw [e1]; omega
  | ⟨2, _⟩ =>
    show win0_5.index _ (2 : Fin 3) * 128 ≤ (i 2).val ∧ (i 2).val < win0_5.index _ (2 : Fin 3) * 128 + 128
    rw [e2]; omega

/-- The output array after the region: `outArr` of the two argument arrays (the 64 blocks tile it). -/
theorem final_out (c : Dev nD) :
    (dats m 0 c).arrAt 5 cfg0.N
      = outArr (m ((c.tc : Thread nD τ).loc main_arg0)) (m ((c.tc : Thread nD τ).loc main_arg1)) :=
  (dats m 0 c).arrAt_eq_of_cover 5 (outArr (m ((c.tc : Thread nD τ).loc main_arg0)) (m ((c.tc : Thread nD τ).loc main_arg1)))
    (fun t _ => flushed_out m c t) out_cover

/-! ## The five closing host operations -/

open Idealize.ShloMosaic.ValueIdx

/-- The slice [0:64, 0:1, 0:1] of a [64,1,128] array reads (b, 0, 0) at (b, 0, 0). -/
theorem slice_apply (X : S64x1x128.Idx → EReal) (b : Fin 64) :
    extractStridedSlice S64x1x1 ![0, 0, 0] X slices_S64x1x128_S64x1x1_0_0_0 (ix3 b (0 : Fin 1) (0 : Fin 1))
      = X (ix3 b (0 : Fin 1) (0 : Fin 128)) := by
  refine extractStridedSlice_apply ![0, 0, 0] X slices_S64x1x128_S64x1x1_0_0_0
    (ix3 b (0 : Fin 1) (0 : Fin 1)) (ix3 b (0 : Fin 1) (0 : Fin 128)) (fun a => ?_)
  match a with
  | ⟨0, _⟩ => show b.val = 0 + b.val; omega
  | ⟨1, _⟩ => show 0 = 0 + 0; rfl
  | ⟨2, _⟩ => show 0 = 0 + 0; rfl

/-- The reshape [64,1,1] → [64] reads (b, 0, 0) at b: both sit at row-major position b. -/
theorem cast_apply (Y : S64x1x1.Idx → EReal) (b : Fin 64) :
    shapeCast S64 Y shapeCasts_S64x1x1_S64 (ix1 b) = Y (ix3 b (0 : Fin 1) (0 : Fin 1)) := by
  refine shapeCast_apply Y shapeCasts_S64x1x1_S64 (ix1 b) (ix3 b (0 : Fin 1) (0 : Fin 1)) ?_
  rw [Shape.rowMajor_val_three, Shape.rowMajor_val_one]
  show (b.val * 1 + 0) * 1 + 0 = b.val
  omega

/-- The vector of 64 the slice and the reshape leave: lane 0 of each block's slot, that is the 64 block sums. -/
theorem col_apply (E : Cert.Spec.SE.Idx → EReal) (S : Cert.Spec.SS.Idx → EReal) (b : Fin 64) :
    shapeCast S64 (extractStridedSlice S64x1x1 ![0, 0, 0] (outArr E S) slices_S64x1x128_S64x1x1_0_0_0) shapeCasts_S64x1x1_S64 (ix1 b)
      = Cert.Spec.blockSum E S b := by
  rw [cast_apply, slice_apply]
  rfl

/-- Indices of a vector of 64 are the numbers below 64. -/
def idx64 : S64.Idx ≃ Fin 64 where
  toFun j := j 0
  invFun b := ix1 b
  left_inv j := (eq_ix1 j).symm
  right_inv b := rfl

/-- The sum over the indices of a vector of 64, entry by entry. -/
theorem sum_idx64 (f : S64.Idx → EReal) : ∑ i : S64.Idx, f i = ∑ b : Fin 64, f (ix1 b) :=
  Fintype.sum_equiv idx64 _ _ (fun i => congrArg f (eq_ix1 i))

/-- The closing host operations, applied to the region's exit contents, give the kernel's loss of the two argument arrays. -/
theorem ker_result (c : Dev nD) :
    StableHlo.after hostOps1 (Wfin m c) (Proc.devRef .tc main_v11)
      = fun _ => Cert.Spec.kerLoss (m ((c.tc : Thread nD τ).loc main_arg0)) (m ((c.tc : Thread nD τ).loc main_arg1)) := by
  show StableHlo.after hostOps1 (Wfin m c) (Proc.devRef .tc main_v11) = _
  after_results
  rw [Wfin_v7, final_out]
  funext z
  -- negation of (0 + the sum over the 64 entries of the column)
  show -(Ideal.hostReduceAdd reducesTo_S64_S_d0
      (fun i => shapeCast S64 (extractStridedSlice S64x1x1 ![0, 0, 0]
        (outArr (m ((c.tc : Thread nD τ).loc main_arg0)) (m ((c.tc : Thread nD τ).loc main_arg1)))
        slices_S64x1x128_S64x1x1_0_0_0) shapeCasts_S64x1x1_S64 i)
      (Ideal.ofBits .f32 0x00000000#32) z) = _
  rw [Ideal.hostReduceAdd_total reducesTo_S64_S_d0 (fun b => b.elim0), Ideal.ofBits_zero_f32, zero_add, sum_idx64]
  unfold Cert.Spec.kerLoss
  refine congrArg (fun x : EReal => -x) ?_
  exact Finset.sum_congr rfl (fun b _ => col_apply _ _ b)

end Cert.KernelIdeal.HandValue

end
-- ==== Proof.RefValue.lean ====
/-
  The value the idealized reference ends with, over the extended reals: minus the sum over all pairs of rows of
  (Gram entry / product of the two norms) · similarity.
-/
import proofs.«173337_j70222715290004_1_alg».proof.Defs
import proofs.«173337_j70222715290004_1_alg».proof.Proof.Gen.ReferenceIdeal.Read
import proofs.«173337_j70222715290004_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.TcCoe Idealize.SL.Sem
open Idealize.ShloMosaic.ValueIdx

/-- The norm stage at row `a` is the Euclidean norm of that row: the square root of 0 + ∑_d E(a,d)·E(a,d). -/
theorem norm_at (x0 : (⟨S8192x512, .f32⟩ : BufTy).Contents (Elt Ideal)) (a : Fin 8192) :
    Read.val_main_v2 (F := Ideal) x0 (ix1 a) = Cert.Spec.rowNorm x0 a := by
  rw [Read.val_main_v2_apply, Read.val_main_v1_apply, Read.val_main_cst_apply]
  simp only [Read.val_main_v0_apply, Ideal.hostUnary_sqrt_def, Ideal.mulf_def, Ideal.ofBits_def, Ideal.ofBits_zero_f32, zero_add]
  unfold Cert.Spec.rowNorm Cert.Spec.rowSq
  refine congrArg Ideal.sqrt (Finset.sum_congr rfl fun k _ => ?_)
  have e : Read.idx_main_v1 (ix1 a) k = ix2 a k := funext fun d => by
    match d with
    | ⟨0, _⟩ => rfl
    | ⟨1, _⟩ => rfl
  rw [e]

/-- The contraction stage at `(a, b)` is the inner product of rows `a` and `b`. -/
theorem gram_at (x0 : (⟨S8192x512, .f32⟩ : BufTy).Contents (Elt Ideal)) (a b : Fin 8192) :
    Read.val_main_v3 (F := Ideal) x0 (ix2 a b) = Cert.Spec.gram x0 a b := by
  rw [Read.val_main_v3_apply]
  unfold Cert.Spec.gram
  refine Finset.sum_congr rfl fun k _ => ?_
  have el : Read.lidx_main_v3 (ix2 a b) k = ix2 a k := funext fun d => by
    match d with
    | ⟨0, _⟩ => rfl
    | ⟨1, _⟩ => rfl
  have er : Read.ridx_main_v3 (ix2 a b) k = ix2 b k := funext fun d => by
    match d with
    | ⟨0, _⟩ => rfl
    | ⟨1, _⟩ => rfl
  rw [el, er]

/-- The column broadcast of the norms at `(a, b)` is the norm of row `a`. -/
theorem col_at (x0 : (⟨S8192x512, .f32⟩ : BufTy).Contents (Elt Ideal)) (a b : Fin 8192) :
    Read.val_main_v6 (F := Ideal) x0 (ix2 a b) = Cert.Spec.rowNorm x0 a := by
  rw [Read.val_main_v6_apply, Read.val_main_v4_apply]
  have e : Read.idx_main_v4 (Read.idx_main_v6 (ix2 a b)) = ix1 a := funext fun d => by
    match d with
    | ⟨0, _⟩ => rfl
  rw [e, norm_at]

/-- The row broadcast of the norms at `(a, b)` is the norm of row `b`. -/
theorem row_at (x0 : (⟨S8192x512, .f32⟩ : BufTy).Contents (Elt Ideal)) (a b : Fin 8192) :
    Read.val_main_v7 (F := Ideal) x0 (ix2 a b) = Cert.Spec.rowNorm x0 b := by
  rw [Read.val_main_v7_apply, Read.val_main_v5_apply]
  have e : Read.idx_main_v5 (Read.idx_main_v7 (ix2 a b)) = ix1 b := funext fun d => by
    match d with
    | ⟨0, _⟩ => rfl
  rw [e, norm_at]

/-- The summand stage at `(a, b)`: the Gram entry over the product of the two norms, times the similarity. -/
theorem term_at (x0 : (⟨S8192x512, .f32⟩ : BufTy).Contents (Elt Ideal))
    (x1 : (⟨S8192x8192, .f32⟩ : BufTy).Contents (Elt Ideal)) (a b : Fin 8192) :
    Read.val_main_v10 (F := Ideal) x0 x1 (ix2 a b) = Cert.Spec.refTerm x0 x1 a b := by
  rw [Read.val_main_v10_apply, Read.val_main_v9_apply, Read.val_main_v8_apply, gram_at, col_at, row_at]
  rfl

/-- The last stage is the reference's loss: minus (0 + the sum of the summands over all pairs). -/
theorem value_eq (x0 : (⟨S8192x512, .f32⟩ : BufTy).Contents (Elt Ideal))
    (x1 : (⟨S8192x8192, .f32⟩ : BufTy).Contents (Elt Ideal)) :
    Read.val_main_v12 (F := Ideal) x0 x1 = fun _ => Cert.Spec.refLoss x0 x1 := by
  funext i
  rw [Read.val_main_v12_apply, Read.val_main_v11_apply, Read.val_main_cst_0_apply, sum_idx2]
  simp only [term_at, Ideal.hostNegf_def, Ideal.negf_def, Ideal.ofBits_def, Ideal.ofBits_zero_f32, zero_add]
  rfl

/-- The reference's run: the result is the reference's loss of the two argument arrays, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
          = (fun _ => Cert.Spec.refLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      rw [Read.val_main_v12_eq (F := Ideal)]
      exact value_eq _ _), (h c).2⟩)
    (Cert.ReferenceIdeal.Value.run (F := Ideal) m ρ)

end Cert.ReferenceIdeal.RefValue

end
-- ==== Proof.PreDecode.lean ====
/-
  What the precondition says of the embedding matrix, read off its printed form: every entry is a real number
  (its absolute value is below +∞), and every row's sum of squares is positive (no row is zero).
-/
import proofs.«173337_j70222715290004_1_alg».proof.Pre_finite_inputs
import proofs.«173337_j70222715290004_1_alg».proof.Proof.Gen.Pre_finite_inputs
import proofs.«173337_j70222715290004_1_alg».proof.Proof.Spec
import Idealize.ShloMosaic.Lib.ReduceAll
import Idealize.ShloMosaic.Lib.StableHlo.Predicate
import Idealize.ShloMosaic.PureOps.Ideal.Laws

noncomputable section

namespace Cert.PreDecode

open Idealize.ShloMosaic Cert.Pre_finite_inputs

/-- The rank-0 shape has exactly one index. -/
instance subsingleton_scalar_idx : Subsingleton S_.Idx := ⟨fun a b => funext fun d => d.elim0⟩

/-- The f32 word 0x7F800000 denotes +∞. -/
theorem ofBits_inf_f32 : Ideal.ofBits .f32 0x7F800000#32 = (⊤ : EReal) := by simp [Ideal.ofBits, Ideal.ieee]

/-- An extended real whose absolute value max x (−x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the comparison |x| < +∞ being set says that x is a real number. -/
theorem real_of_cmp_abs (x : EReal)
    (h : Ideal.cmp .olt (max x (-x)) (Ideal.ofBits .f32 0x7F800000#32) = 1#1) : ∃ r : ℝ, x = (r : EReal) := by
  rw [ofBits_inf_f32] at h
  unfold Ideal.cmp at h
  rw [StableHlo.Predicate.ofBool_eq_one_iff] at h
  exact real_of_abs_lt_top x (by simpa using h)

/-- One element of the comparison s > 0 being set says 0 < s. -/
theorem pos_of_cmp_gt (s : EReal)
    (h : Ideal.cmp .ogt s (Ideal.ofBits .f32 0x00000000#32) = 1#1) : 0 < s := by
  rw [Ideal.ofBits_zero_f32] at h
  unfold Ideal.cmp at h
  rw [StableHlo.Predicate.ofBool_eq_one_iff] at h
  simpa using h

/-- The sum along axis 1 of the elementwise square, started from the zero word, read at row i:
    0 + ∑_d E(i,d)·E(i,d), which is the row's sum of squares. -/
theorem rowSum_read (E : FVec Ideal S8192x512 .f32) (i : Fin 8192) :
    Host.reduceAdd (F := Ideal) (mulf E E) (constant (F := Ideal) S_ .f32 0x00000000#32)
        Facts.reducesTo_S8192x512_S8192_d1 Facts.h_S_ (ValueIdx.ix1 i)
      = Cert.Spec.rowSq E i := by
  unfold Cert.Spec.rowSq
  generalize hy : mulf E E = y
  simp only [Host.reduceAdd, Ideal.hostReduceAdd_def]
  rw [Ideal.hostReduceAdd_single Facts.reducesTo_S8192x512_S8192_d1 (by decide)]
  have hz : (constant (F := Ideal) S_ .f32 0x00000000#32) (Shape.Idx.first Facts.h_S_) = (0 : EReal) :=
    Ideal.ofBits_zero_f32
  rw [hz, zero_add]
  refine Finset.sum_congr rfl fun d _ => ?_
  subst hy
  have hidx : (Shape.Reduces.lift (by decide : S8192x512.Reduces [1] S8192) (ValueIdx.ix1 i) d) = ValueIdx.ix2 i d :=
    funext fun a => Fin.ext (by match a with | ⟨0, _⟩ => rfl | ⟨1, _⟩ => rfl)
  rw [hidx]
  rfl

/-- The precondition all ones says: the embedding's entries are real, and no row of it is zero. -/
theorem facts_of_pre (E : FVec Ideal S8192x512 .f32) (S : FVec Ideal S8192x8192 .f32) (B : FVec Ideal S1 .f32)
    (h : Cert.Pre_finite_inputs.fn (F := Ideal) E S B = fun _ => 1#1) :
    (∀ k, ∃ r : ℝ, E k = (r : EReal)) ∧ (∀ i, 0 < Cert.Spec.rowSq E i) := by
  have h0 := congrFun h ValueIdx.ix0
  dsimp only [Cert.Pre_finite_inputs.fn, Cert.Pre_finite_inputs.fn_part1, andi] at h0
  rw [IntOp.andi_eq_one, IntOp.andi_eq_one, IntOp.andi_eq_one] at h0
  obtain ⟨⟨⟨hE, -⟩, -⟩, hR⟩ := h0
  constructor
  · intro k
    exact real_of_cmp_abs (E k) (Host.reduce_andi_all _ _ _ _ _ hE k)
  · intro i
    have hi := Host.reduce_andi_all _ _ _ _ _ hR (ValueIdx.ix1 i)
    rw [← rowSum_read E i]
    exact pos_of_cmp_gt _ hi

end Cert.PreDecode

end
-- ==== Proof.lean ====
/-
  The certificate: the kernel computes the same loss as the reference, over the extended reals, whenever every
  entry of the inputs is finite and no row of the embedding matrix is zero.

  Both programs compute  −∑_{i,j} w(i,j) · S(i,j)  from the embedding matrix E and the similarity matrix S, where the
  reference's weight is the Gram entry ⟨E_i, E_j⟩ divided by the product of the two row norms, and the kernel's is the
  Gram entry times the product of the two reciprocal norms, the sum taken block of 128 rows by block. With every
  norm a positive real the two weights are one real number, and a finite sum regroups freely; at a zero row the
  reference divides 0 by 0, which is why the precondition excludes it.

  The three frames: each program runs to the end without a fault and leaves its arguments unchanged. The kernel's
  two programs (as printed, and idealized) share one argument, stated once for any float instance: the host
  operations before the region, the region point by point, the host operations after it. The reference is a line
  of host operations. The idealization rewrote nothing, so the preservation claim is trivial.
-/
import proofs.«173337_j70222715290004_1_alg».proof.Defs
import proofs.«173337_j70222715290004_1_alg».proof.Proof.Gen.Kernel
import proofs.«173337_j70222715290004_1_alg».proof.Proof.Gen.KernelIdeal
import proofs.«173337_j70222715290004_1_alg».proof.Proof.Gen.ReferenceIdeal
import proofs.«173337_j70222715290004_1_alg».proof.Proof.Gen.Pre_finite_inputs
import proofs.«173337_j70222715290004_1_alg».proof.Proof.KLaunch
import proofs.«173337_j70222715290004_1_alg».proof.Proof.KILaunch
import proofs.«173337_j70222715290004_1_alg».proof.Proof.KIValue
import proofs.«173337_j70222715290004_1_alg».proof.Proof.RefValue
import proofs.«173337_j70222715290004_1_alg».proof.Proof.PreDecode
import proofs.«173337_j70222715290004_1_alg».proof.Proof.Spec
import Idealize.ShloMosaic.Adequacy
import Idealize.ShloMosaic.Init

noncomputable section

namespace Cert.Proof

open Idealize.ShloMosaic Idealize.SL.Sem

/-- The kernel's program as printed runs and keeps its arguments. -/
theorem frame_k : Cert.frame_Kernel := fun m ρ _ =>
  (θ_run Cert.Kernel.defs _ _).mono (fun _ h c => (h c).2) (Cert.Kernel.Hand.run_main (F := Bits) m ρ)

/-- The idealized kernel's program runs and keeps its arguments. -/
theorem frame_ki : Cert.frame_KernelIdeal := fun m ρ _ =>
  (θ_run Cert.KernelIdeal.defs _ _).mono (fun _ h c => (h c).2) (Cert.KernelIdeal.Hand.run_main (F := Ideal) m ρ)

/-- The idealized reference runs and keeps its arguments. -/
theorem frame_ri : Cert.frame_ReferenceIdeal := fun m ρ _ =>
  (θ_run Cert.ReferenceIdeal.defs _ _).mono (fun _ h c => (h c).2) (Cert.ReferenceIdeal.RefValue.ref_run m ρ)

/-- From memories that agree on the arguments both idealized programs end with the kernel's loss of the arguments:
    the kernel by its run and its value, the reference by its run and the equality of the two losses under the
    precondition's two facts about the embedding matrix. -/
theorem algebraic : Cert.algebraic_KernelIdeal_ReferenceIdeal := by
  intro m ρ m' ρ' hpre hagree
  refine ⟨fun c => fun _ => Cert.Spec.kerLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.HandValue.ker_result m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.RefValue.ref_run m' ρ')
    rw [(hagree c).1, (hagree c).2.1]
    obtain ⟨hfin, hpos⟩ := Cert.PreDecode.facts_of_pre _ _ _ (hpre c)
    exact funext fun _ => (Cert.Spec.kerLoss_eq_refLoss _ _ hfin hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
